-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2500000 : Shape := ⟨2, ![2, 2500000]⟩
abbrev S2500000 : Shape := ⟨1, ![2500000]⟩
abbrev S2x1700000 : Shape := ⟨2, ![2, 1700000]⟩
abbrev S1700000 : Shape := ⟨1, ![1700000]⟩
abbrev S2048x64 : Shape := ⟨2, ![2048, 64]⟩
abbrev S64 : Shape := ⟨1, ![64]⟩
abbrev S64x40 : Shape := ⟨2, ![64, 40]⟩
abbrev S40 : Shape := ⟨1, ![40]⟩
abbrev S_ : Shape := ⟨0, ![]⟩
abbrev S1x2500000 : Shape := ⟨2, ![1, 2500000]⟩

class Facts : Prop where
  bcast_S_S2500000 : S_.BroadcastsInDim S2500000 (![] : Fin 0 → Fin S2500000.rank)
  reducesTo_S2500000_S_d0 : S2500000.ReducesTo [0] S_
  h_S_ : 0 < S_.numel
  bcast_S_S1700000 : S_.BroadcastsInDim S1700000 (![] : Fin 0 → Fin S1700000.rank)
  reducesTo_S1700000_S_d0 : S1700000.ReducesTo [0] S_
  bcast_S_S2048x64 : S_.BroadcastsInDim S2048x64 (![] : Fin 0 → Fin S2048x64.rank)
  reducesTo_S2048x64_S_d0_1 : S2048x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_
  bcast_S_S2x2500000 : S_.BroadcastsInDim S2x2500000 (![] : Fin 0 → Fin S2x2500000.rank)
  reducesTo_S2x2500000_S_d0_1 : S2x2500000.ReducesTo [0, 1] S_
  slices_S2x2500000_S1x2500000_1_0 : S2x2500000.Slices ![1, 0] S1x2500000
  shapeCasts_S1x2500000_S2500000 : S1x2500000.ShapeCasts S2500000

variable [Facts]

def fn_part2 {F : FTy → Type} [FloatOps F] (main_v32 : IVec S_ 1) (main_v33 : IVec S1x2500000 32) : IVec S_ 1 :=
  let main_v34 : IVec S2500000 32 := shapeCast S2500000 main_v33 shapeCasts_S1x2500000_S2500000
  let main_c_12 : IVec S_ 32 := constantI S_ 32 2048#32
  let main_v35 : IVec S2500000 32 := broadcastInDim S2500000 ![] bcast_S_S2500000 main_c_12
  let main_v36 : IVec S2500000 1 := cmpi .slt main_v34 main_v35
  let main_c_13 : IVec S_ 1 := constantI S_ 1 1#1
  let main_v37 : IVec S_ 1 := (fun x v => Host.reduce IntOp.andi x v reducesTo_S2500000_S_d0 h_S_) main_v36 main_c_13
  let main_v38 : IVec S_ 1 := andi main_v32 main_v37
  main_v38

def fn_part1 {F : FTy → Type} [FloatOps F] (main_arg0 : IVec S2x2500000 32) (main_arg6 : FVec F S64x40 .f32) (main_arg7 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x40 .f32 := Host.absf main_arg6
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg7
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_c_10 : IVec S_ 32 := constantI S_ 32 0#32
  let main_v29 : IVec S2x2500000 32 := broadcastInDim S2x2500000 ![] bcast_S_S2x2500000 main_c_10
  let main_v30 : IVec S2x2500000 1 := cmpi .sge main_arg0 main_v29
  let main_c_11 : IVec S_ 1 := constantI S_ 1 1#1
  let main_v31 : IVec S_ 1 := (fun x v => Host.reduce IntOp.andi x v reducesTo_S2x2500000_S_d0_1 h_S_) main_v30 main_c_11
  let main_v32 : IVec S_ 1 := andi main_v28 main_v31
  let main_v33 : IVec S1x2500000 32 := (extractStridedSlice S1x2500000 ![1, 0] · slices_S2x2500000_S1x2500000_1_0) main_arg0
  fn_part2 (F := F) main_v32 main_v33

def fn {F : FTy → Type} [FloatOps F] (main_arg0 : IVec S2x2500000 32) (main_arg1 : FVec F S2500000 .f32) (main_arg2 : IVec S2x1700000 32) (main_arg3 : FVec F S1700000 .f32) (main_arg4 : FVec F S2048x64 .f32) (main_arg5 : FVec F S64 .f32) (main_arg6 : FVec F S64x40 .f32) (main_arg7 : FVec F S40 .f32) : IVec S_ 1 :=
  let main_v0 : FVec F S2500000 .f32 := Host.absf main_arg1
  let main_cst : FVec F S_ .f32 := constant S_ .f32 0x7F800000#32
  let main_v1 : FVec F S2500000 .f32 := broadcastInDim S2500000 ![] bcast_S_S2500000 main_cst
  let main_v2 : IVec S2500000 1 := cmpf .olt main_v0 main_v1
  let main_c : IVec S_ 1 := constantI S_ 1 1#1
  let main_v3 : IVec S_ 1 := (fun x v => Host.reduce IntOp.andi x v reducesTo_S2500000_S_d0 h_S_) main_v2 main_c
  let main_v4 : FVec F S1700000 .f32 := Host.absf main_arg3
  let main_cst_0 : FVec F S_ .f32 := constant S_ .f32 0x7F800000#32
  let main_v5 : FVec F S1700000 .f32 := broadcastInDim S1700000 ![] bcast_S_S1700000 main_cst_0
  let main_v6 : IVec S1700000 1 := cmpf .olt main_v4 main_v5
  let main_c_1 : IVec S_ 1 := constantI S_ 1 1#1
  let main_v7 : IVec S_ 1 := (fun x v => Host.reduce IntOp.andi x v reducesTo_S1700000_S_d0 h_S_) main_v6 main_c_1
  let main_v8 : IVec S_ 1 := andi main_v3 main_v7
  let main_v9 : FVec F S2048x64 .f32 := Host.absf main_arg4
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg6 main_arg7 main_v13 main_v16
-- ==== Kernel.lean ====
abbrev S2x2500000 : Shape := ⟨2, ![2, 2500000]⟩
abbrev S2500000 : Shape := ⟨1, ![2500000]⟩
abbrev S2x1700000 : Shape := ⟨2, ![2, 1700000]⟩
abbrev S1700000 : Shape := ⟨1, ![1700000]⟩
abbrev S2048x64 : Shape := ⟨2, ![2048, 64]⟩
abbrev S64 : Shape := ⟨1, ![64]⟩
abbrev S64x40 : Shape := ⟨2, ![64, 40]⟩
abbrev S40 : Shape := ⟨1, ![40]⟩
abbrev S1x2500000 : Shape := ⟨2, ![1, 2500000]⟩
abbrev S1x1700000 : Shape := ⟨2, ![1, 1700000]⟩
abbrev S_ : Shape := ⟨0, ![]⟩
abbrev S100000x2048 : Shape := ⟨2, ![100000, 2048]⟩
abbrev S2500000x1 : Shape := ⟨2, ![2500000, 1]⟩
abbrev S2500000x2 : Shape := ⟨2, ![2500000, 2]⟩
abbrev S1x64 : Shape := ⟨2, ![1, 64]⟩
abbrev S100000x64 : Shape := ⟨2, ![100000, 64]⟩
abbrev S1000x2048 : Shape := ⟨2, ![1000, 2048]⟩
abbrev S1000x64 : Shape := ⟨2, ![1000, 64]⟩
abbrev S1700000x1 : Shape := ⟨2, ![1700000, 1]⟩
abbrev S1700000x64 : Shape := ⟨2, ![1700000, 64]⟩
abbrev S1x40 : Shape := ⟨2, ![1, 40]⟩
abbrev S100000x40 : Shape := ⟨2, ![100000, 40]⟩
abbrev S5000x64 : Shape := ⟨2, ![5000, 64]⟩
abbrev S5000x40 : Shape := ⟨2, ![5000, 40]⟩
abbrev S1700000x40 : Shape := ⟨2, ![1700000, 40]⟩
abbrev S5000 : Shape := ⟨1, ![5000]⟩
abbrev S5000x1 : Shape := ⟨2, ![5000, 1]⟩

abbrev nBuf : Space → Nat
  | .hbm => 76
  | .vmem => 16
  | .smem => 0
  | _ => 0

abbrev bufTy : (tb : Table) → Fin (tcTables nBuf tb) → BufTy
  | .hbm, ⟨0, _⟩ => ⟨S2x2500000, .i32⟩
  | .hbm, ⟨1, _⟩ => ⟨S2500000, .f32⟩
  | .hbm, ⟨2, _⟩ => ⟨S2x1700000, .i32⟩
  | .hbm, ⟨3, _⟩ => ⟨S1700000, .f32⟩
  | .hbm, ⟨4, _⟩ => ⟨S2048x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S1x2500000, .i32⟩
  | .hbm, ⟨9, _⟩ => ⟨S2500000, .i32⟩
  | .hbm, ⟨10, _⟩ => ⟨S1x2500000, .i32⟩
  | .hbm, ⟨11, _⟩ => ⟨S2500000, .i32⟩
  | .hbm, ⟨12, _⟩ => ⟨S1x1700000, .i32⟩
  | .hbm, ⟨13, _⟩ => ⟨S1700000, .i32⟩
  | .hbm, ⟨14, _⟩ => ⟨S1x1700000, .i32⟩
  | .hbm, ⟨15, _⟩ => ⟨S1700000, .i32⟩
  | .hbm, ⟨16, _⟩ => ⟨S_, .f32⟩
  | .hbm, ⟨17, _⟩ => ⟨S100000x2048, .f32⟩
  | .hbm, ⟨18, _⟩ => ⟨S_, .i32⟩
  | .hbm, ⟨19, _⟩ => ⟨S2500000, .i32⟩
  | .hbm, ⟨20, _⟩ => ⟨S2500000, .i1⟩
  | .hbm, ⟨21, _⟩ => ⟨S_, .i32⟩
  | .hbm, ⟨22, _⟩ => ⟨S2500000, .i32⟩
  | .hbm, ⟨23, _⟩ => ⟨S2500000, .i32⟩
  | .hbm, ⟨24, _⟩ => ⟨S2500000, .i32⟩
  | .hbm, ⟨25, _⟩ => ⟨S_, .i32⟩
  | .hbm, ⟨26, _⟩ => ⟨S2500000, .i32⟩
  | .hbm, ⟨27, _⟩ => ⟨S2500000, .i1⟩
  | .hbm, ⟨28, _⟩ => ⟨S_, .i32⟩
  | .hbm, ⟨29, _⟩ => ⟨S2500000, .i32⟩
  | .hbm, ⟨30, _⟩ => ⟨S2500000, .i32⟩
  | .hbm, ⟨31, _⟩ => ⟨S2500000, .i32⟩
  | .hbm, ⟨32, _⟩ => ⟨S2500000x1, .i32⟩
  | .hbm, ⟨33, _⟩ => ⟨S2500000x1, .i32⟩
  | .hbm, ⟨34, _⟩ => ⟨S2500000x2, .i32⟩
  | .hbm, ⟨35, _⟩ => ⟨S100000x2048, .f32⟩
  | .hbm, ⟨36, _⟩ => ⟨S100000x2048, .bf16⟩
  | .hbm, ⟨37, _⟩ => ⟨S1x64, .f32⟩
  | .hbm, ⟨38, _⟩ => ⟨S100000x64, .bf16⟩
  | .hbm, ⟨39, _⟩ => ⟨S1700000x1, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x64, .bf16⟩
  | .hbm, ⟨49, _⟩ => ⟨S1700000x64, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x40, .f32⟩
  | .hbm, ⟨57, _⟩ => ⟨S100000x40, .bf16⟩
  | .hbm, ⟨58, _⟩ => ⟨S1700000x1, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x40, .bf16⟩
  | .hbm, ⟨68, _⟩ => ⟨S1700000x40, .f32⟩
  | .hbm, ⟨69, _⟩ => ⟨S1700000x40, .f32⟩
  | .hbm, ⟨70, _⟩ => ⟨S1700000x40, .f32⟩
  | .hbm, ⟨71, _⟩ => ⟨S_, .f32⟩
  | .hbm, ⟨72, _⟩ => ⟨S100000x40, .f32⟩
  | .hbm, ⟨73, _⟩ => ⟨S1700000x1, .i32⟩
  | .hbm, ⟨74, _⟩ => ⟨S100000x40, .f32⟩
  | .hbm, ⟨75, _⟩ => ⟨S100000x40, .f32⟩
  | .local _ .vmem, ⟨0, _⟩ => ⟨S1000x2048, .bf16⟩
  | .local _ .vmem, ⟨1, _⟩ => ⟨S1000x2048, .bf16⟩
  | .local _ .vmem, ⟨2, _⟩ => ⟨S2048x64, .f32⟩
  | .local _ .vmem, ⟨3, _⟩ => ⟨S1x64, .f32⟩
  | .local _ .vmem, ⟨4, _⟩ => ⟨S1000x64, .bf16⟩
  | .local _ .vmem, ⟨5, _⟩ => ⟨S1000x64, .bf16⟩
  | .local _ .vmem, ⟨6, _⟩ => ⟨S5000x64, .f32⟩
  | .local _ .vmem, ⟨7, _⟩ => ⟨S5000x64, .f32⟩
  | .local _ .vmem, ⟨8, _⟩ => ⟨S64x40, .f32⟩
  | .local _ .vmem, ⟨9, _⟩ => ⟨S1x40, .f32⟩
  | .local _ .vmem, ⟨10, _⟩ => ⟨S5000x40, .bf16⟩
  | .local _ .vmem, ⟨11, _⟩ => ⟨S5000x40, .bf16⟩
  | .local _ .vmem, ⟨12, _⟩ => ⟨S5000x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | _, _ => ⟨S2x2500000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_6 : Ref sig .tc := ⟨.hbm, 59, rfl⟩
abbrev main_v43 : Ref sig .tc := ⟨.hbm, 60, rfl⟩
abbrev main_v44 : Ref sig .tc := ⟨.hbm, 61, rfl⟩
abbrev main_c_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  slices_S2x1700000_S1x1700000_0_0 : S2x1700000.Slices ![0, 0] S1x1700000
  shapeCasts_S1x1700000_S1700000 : S1x1700000.ShapeCasts S1700000
  slices_S2x1700000_S1x1700000_1_0 : S2x1700000.Slices ![1, 0] S1x1700000
  bcast_S_S100000x2048 : S_.BroadcastsInDim S100000x2048 (![] : Fin 0 → Fin S100000x2048.rank)
  bcast_S_S2500000 : S_.BroadcastsInDim S2500000 (![] : Fin 0 → Fin S2500000.rank)
  bcast_S2500000_S2500000x1_0 : S2500000.BroadcastsInDim S2500000x1 (![0] : Fin 1 → Fin S2500000x1.rank)
  concatenates_S2500000x1_S2500000x1_S2500000x2_d1 : Shape.Concatenates [S2500000x1, S2500000x1] S2500000x2 1
  bitsLt_bf16_f32 : FTy.bits .bf16 < FTy.bits .f32
  shapeCasts_S64_S1x64 : S64.ShapeCasts S1x64
  inb_S1000x2048_S1000x2048_0_0 : ∀ a, (![0, 0] : Fin 2 → Nat) a + S1000x2048.size a ≤ S1000x2048.size a
  h_S1000x2048 : 0 < S1000x2048.numel
  shapeCasts_S1000x2048_S1000x2048 : S1000x2048.ShapeCasts S1000x2048
  inb_S2048x64_S2048x64_0_0 : ∀ a, (![0, 0] : Fin 2 → Nat) a + S2048x64.size a ≤ S2048x64.size a
  h_S2048x64 : 0 < S2048x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  packedbf16_S1000x64_S1000x64_0_0 : (Rect.unit (s := S1000x64) ![0, 0] S1000x64.size inb_S1000x64_S1000x64_0_0).PackedRows (EltTy.packing .bf16)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S40_S1x40 : S40.ShapeCasts S1x40
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  packedbf16_S5000x40_S5000x40_0_0 : (Rect.unit (s := S5000x40) ![0, 0] S5000x40.size inb_S5000x40_S5000x40_0_0).PackedRows (EltTy.packing .bf16)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S5000x40_S5000x40 : S5000x40.ShapeCasts S5000x40
  reduces_S5000x40_S5000 : S5000x40.Reduces [1] S5000
  shapeCasts_S5000_S5000x1 : S5000.ShapeCasts S5000x1
  broadcasts_S5000x1_S5000x40 : S5000x1.Broadcasts S5000x40
  scatter_S100000x2048_S2500000x2_S2500000_n_01_01_1_wf : ScatterDims.WF S100000x2048 S2500000x2 S2500000 [] [0, 1] [0, 1] 1
  dot_S1000x2048_S2048x64_S1000x64_1_0_0_1_n_n_wf : DotDims.WF S1000x2048 S2048x64 S1000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x40_S5000x40_1_0_0_1_n_n_wf : DotDims.WF S5000x64 S64x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2048.size a ≤ S100000x2048.size a
  hwx0_0 : ∀ i : grid0.Coords, EltTy.bits .bf16 = 32 ∨ (Rect.block (s := S100000x2048) S1000x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S2048x64.size a
  hwx0_1 : ∀ i : grid0.Coords, EltTy.bits .f32 = 32 ∨ (Rect.block (s := S2048x64) S2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x64.size a ≤ S100000x64.size a
  hwx0_3 : ∀ i : grid0.Coords, EltTy.bits .bf16 = 32 ∨ (Rect.block (s := S100000x64) S1000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x40.size a ≤ S64x40.size a
  hwx1_1 : ∀ i : grid1.Coords, EltTy.bits .f32 = 32 ∨ (Rect.block (s := S64x40) S64x40.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x40.size a ≤ S1x40.size a
  hwx1_2 : ∀ i : grid1.Coords, EltTy.bits .f32 = 32 ∨ (Rect.block (s := S1x40) S1x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S100000x40.size a
  hwx1_3 : ∀ i : grid1.Coords, EltTy.bits .bf16 = 32 ∨ (Rect.block (s := S100000x40) S5000x40.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x40.size a ≤ S100000x40.size a
  hwx2_1 : ∀ i : grid2.Coords, EltTy.bits .f32 = 32 ∨ (Rect.block (s := S100000x40) S5000x40.size (cc2_transform_1 i) (hinb2_1 i)).WholeWords (EltTy.packing .f32)

variable [Facts₀]

def scatter_S100000x2048_S2500000x2_S2500000_n_01_01_1 : ScatterDims S100000x2048 S2500000x2 S2500000 where
  updateWindowDims := []
  insertedWindowDims := [0, 1]
  scatterDimsToOperandDims := [0, 1]
  indexVectorDim := 1
  wf := scatter_S100000x2048_S2500000x2_S2500000_n_01_01_1_wf
def dot_S1000x2048_S2048x64_S1000x64_1_0_0_1_n_n : DotDims S1000x2048 S2048x64 S1000x64 where
  lhsContracting := [1]
  rhsContracting := [0]
  lhsNonContracting := [0]
  rhsNonContracting := [1]
  lhsBatch := []
  rhsBatch := []
  wf := dot_S1000x2048_S2048x64_S1000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_v23) S1000x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v39) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S5000x40.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S2x2500000 : Shape := ⟨2, ![2, 2500000]⟩
abbrev S2500000 : Shape := ⟨1, ![2500000]⟩
abbrev S2x1700000 : Shape := ⟨2, ![2, 1700000]⟩
abbrev S1700000 : Shape := ⟨1, ![1700000]⟩
abbrev S2048x64 : Shape := ⟨2, ![2048, 64]⟩
abbrev S64 : Shape := ⟨1, ![64]⟩
abbrev S64x40 : Shape := ⟨2, ![64, 40]⟩
abbrev S40 : Shape := ⟨1, ![40]⟩
abbrev S1x2500000 : Shape := ⟨2, ![1, 2500000]⟩
abbrev S1x1700000 : Shape := ⟨2, ![1, 1700000]⟩
abbrev S2500000x1 : Shape := ⟨2, ![2500000, 1]⟩
abbrev S_ : Shape := ⟨0, ![]⟩
abbrev S2500000x64 : Shape := ⟨2, ![2500000, 64]⟩
abbrev S100000x64 : Shape := ⟨2, ![100000, 64]⟩
abbrev S1x64 : Shape := ⟨2, ![1, 64]⟩
abbrev S1700000x1 : Shape := ⟨2, ![1700000, 1]⟩
abbrev S1700000x64 : Shape := ⟨2, ![1700000, 64]⟩
abbrev S100000x40 : Shape := ⟨2, ![100000, 40]⟩
abbrev S1x40 : Shape := ⟨2, ![1, 40]⟩
abbrev S1700000x40 : Shape := ⟨2, ![1700000, 40]⟩
abbrev S100000 : Shape := ⟨1, ![100000]⟩
abbrev S100000x1 : Shape := ⟨2, ![100000, 1]⟩

abbrev nBuf : Space → Nat
  | .hbm => 89
  | .vmem => 0
  | .smem => 0
  | _ => 0

abbrev bufTy : (tb : Table) → Fin (tcTables nBuf tb) → BufTy
  | .hbm, ⟨0, _⟩ => ⟨S2x2500000, .i32⟩
  | .hbm, ⟨1, _⟩ => ⟨S2500000, .f32⟩
  | .hbm, ⟨2, _⟩ => ⟨S2x1700000, .i32⟩
  | .hbm, ⟨3, _⟩ => ⟨S1700000, .f32⟩
  | .hbm, ⟨4, _⟩ => ⟨S2048x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S1x2500000, .i32⟩
  | .hbm, ⟨9, _⟩ => ⟨S2500000, .i32⟩
  | .hbm, ⟨10, _⟩ => ⟨S1x2500000, .i32⟩
  | .hbm, ⟨11, _⟩ => ⟨S2500000, .i32⟩
  | .hbm, ⟨12, _⟩ => ⟨S1x1700000, .i32⟩
  | .hbm, ⟨13, _⟩ => ⟨S1700000, .i32⟩
  | .hbm, ⟨14, _⟩ => ⟨S1x1700000, .i32⟩
  | .hbm, ⟨15, _⟩ => ⟨S1700000, .i32⟩
  | .hbm, ⟨16, _⟩ => ⟨S2500000x1, .f32⟩
  | .hbm, ⟨17, _⟩ => ⟨S_, .i32⟩
  | .hbm, ⟨18, _⟩ => ⟨S2500000, .i32⟩
  | .hbm, ⟨19, _⟩ => ⟨S2500000, .i1⟩
  | .hbm, ⟨20, _⟩ => ⟨S_, .i32⟩
  | .hbm, ⟨21, _⟩ => ⟨S2500000, .i32⟩
  | .hbm, ⟨22, _⟩ => ⟨S2500000, .i32⟩
  | .hbm, ⟨23, _⟩ => ⟨S2500000, .i32⟩
  | .hbm, ⟨24, _⟩ => ⟨S2500000x1, .i32⟩
  | .hbm, ⟨25, _⟩ => ⟨S2500000x64, .f32⟩
  | .hbm, ⟨26, _⟩ => ⟨S2500000x64, .f32⟩
  | .hbm, ⟨27, _⟩ => ⟨S2500000x64, .f32⟩
  | .hbm, ⟨28, _⟩ => ⟨S_, .f32⟩
  | .hbm, ⟨29, _⟩ => ⟨S100000x64, .f32⟩
  | .hbm, ⟨30, _⟩ => ⟨S2500000x1, .i32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S100000x64, .f32⟩
  | .hbm, ⟨35, _⟩ => ⟨S1700000x1, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000x64, .f32⟩
  | .hbm, ⟨45, _⟩ => ⟨S1700000x64, .f32⟩
  | .hbm, ⟨46, _⟩ => ⟨S1700000x64, .f32⟩
  | .hbm, ⟨47, _⟩ => ⟨S_, .f32⟩
  | .hbm, ⟨48, _⟩ => ⟨S100000x64, .f32⟩
  | .hbm, ⟨49, _⟩ => ⟨S1700000x1, .i32⟩
  | .hbm, ⟨50, _⟩ => ⟨S100000x64, .f32⟩
  | .hbm, ⟨51, _⟩ => ⟨S_, .f32⟩
  | .hbm, ⟨52, _⟩ => ⟨S100000x64, .f32⟩
  | .hbm, ⟨53, _⟩ => ⟨S100000x64, .f32⟩
  | .hbm, ⟨54, _⟩ => ⟨S100000x40, .f32⟩
  | .hbm, ⟨55, _⟩ => ⟨S1x40, .f32⟩
  | .hbm, ⟨56, _⟩ => ⟨S100000x40, .f32⟩
  | .hbm, ⟨57, _⟩ => ⟨S100000x40, .f32⟩
  | .hbm, ⟨58, _⟩ => ⟨S1700000x1, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x40, .f32⟩
  | .hbm, ⟨68, _⟩ => ⟨S1700000x40, .f32⟩
  | .hbm, ⟨69, _⟩ => ⟨S1700000x40, .f32⟩
  | .hbm, ⟨70, _⟩ => ⟨S_, .f32⟩
  | .hbm, ⟨71, _⟩ => ⟨S100000x40, .f32⟩
  | .hbm, ⟨72, _⟩ => ⟨S1700000x1, .i32⟩
  | .hbm, ⟨73, _⟩ => ⟨S100000x40, .f32⟩
  | .hbm, ⟨74, _⟩ => ⟨S_, .f32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .f32⟩
  | .hbm, ⟨79, _⟩ => ⟨S100000x1, .f32⟩
  | .hbm, ⟨80, _⟩ => ⟨S100000x40, .f32⟩
  | .hbm, ⟨81, _⟩ => ⟨S100000x40, .f32⟩
  | .hbm, ⟨82, _⟩ => ⟨S100000x40, .f32⟩
  | .hbm, ⟨83, _⟩ => ⟨S_, .f32⟩
  | .hbm, ⟨84, _⟩ => ⟨S100000, .f32⟩
  | .hbm, ⟨85, _⟩ => ⟨S100000x1, .f32⟩
  | .hbm, ⟨86, _⟩ => ⟨S100000x1, .f32⟩
  | .hbm, ⟨87, _⟩ => ⟨S100000x40, .f32⟩
  | .hbm, ⟨88, _⟩ => ⟨S100000x40, .f32⟩
  | _, _ => ⟨S2x2500000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_1 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call0_cst : Ref sig .tc := ⟨.hbm, 51, rfl⟩
abbrev main_call0_v0 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_4 : Ref sig .tc := ⟨.hbm, 59, rfl⟩
abbrev main_v43 : Ref sig .tc := ⟨.hbm, 60, rfl⟩
abbrev main_v44 : Ref sig .tc := ⟨.hbm, 61, rfl⟩
abbrev main_c_5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_call1_cst : Ref sig .tc := ⟨.hbm, 74, rfl⟩
abbrev main_call1_v0 : Ref sig .tc := ⟨.hbm, 75, rfl⟩
abbrev main_call1_cst_0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_cst_1 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_v55 : Ref sig .tc := ⟨.hbm, 88, rfl⟩

abbrev nD : Nat := 1
abbrev τ : Topo := Topo.v7x

variable {F : FTy → Type} [FloatOps F]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  slices_S2x1700000_S1x1700000_0_0 : S2x1700000.Slices ![0, 0] S1x1700000
  shapeCasts_S1x1700000_S1700000 : S1x1700000.ShapeCasts S1700000
  slices_S2x1700000_S1x1700000_1_0 : S2x1700000.Slices ![1, 0] S1x1700000
  bcast_S2500000_S2500000x1_0 : S2500000.BroadcastsInDim S2500000x1 (![0] : Fin 1 → Fin S2500000x1.rank)
  bcast_S_S2500000 : S_.BroadcastsInDim S2500000 (![] : Fin 0 → Fin S2500000.rank)
  bcast_S2500000x1_S2500000x64_0_1 : S2500000x1.BroadcastsInDim S2500000x64 (![0, 1] : Fin 2 → Fin S2500000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  gather_S2048x64_S2500000x1_S2500000x64_1_0_n_n_0_1_164_wf : GatherDims.WF S2048x64 S2500000x1 S2500000x64 [1] [0] [] [0] [] 1 ![1, 64]
  scatter_S100000x64_S2500000x1_S2500000x64_1_0_0_1_wf : ScatterDims.WF S100000x64 S2500000x1 S2500000x64 [1] [0] [0] 1
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def gather_S2048x64_S2500000x1_S2500000x64_1_0_n_n_0_1_164 : GatherDims S2048x64 S2500000x1 S2500000x64 where
  offsetDims := [1]
  collapsedSliceDims := [0]
  operandBatchingDims := []
  startIndicesBatchingDims := []
  startIndexMap := [0]
  indexVectorDim := 1
  sliceSizes := ![1, 64]
  wf := gather_S2048x64_S2500000x1_S2500000x64_1_0_n_n_0_1_164_wf
def scatter_S100000x64_S2500000x1_S2500000x64_1_0_0_1 : ScatterDims S100000x64 S2500000x1 S2500000x64 where
  updateWindowDims := [1]
  insertedWindowDims := [0]
  scatterDimsToOperandDims := [0]
  indexVectorDim := 1
  wf := scatter_S100000x64_S2500000x1_S2500000x64_1_0_0_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelStages.lean ====
import proofs.«410451_j81449759801465_2_alg».proof.KernelIdeal
import proofs.«410451_j81449759801465_2_alg».proof.Proof.Gen.KernelIdeal

/-!
# The kernel program's host stretches as functions of whole arrays

Around its three pipelined calls the kernel program applies array operations on the host: it scatters the sparse
feature matrix's nonzeros into a dense array before the first call, and propagates rows over the graph's edges between
the calls. Each stretch is one function of the arrays it takes over, written with the operations the program applies.
-/

noncomputable section

namespace Cert.KernelIdeal.Stage

open Cert.KernelIdeal Cert.KernelIdeal.Gen Idealize.ShloMosaic Idealize.ShloMosaic.TcCoe

variable {F : FTy → Type} [FloatOps F]

/-- Row 0 of the feature matrix's coordinate array: the row index of each nonzero. -/
def featRows (a : IVec S2x2500000 32) : IVec S2500000 32 :=
  shapeCast S2500000 (extractStridedSlice S1x2500000 ![0, 0] a slices_S2x2500000_S1x2500000_0_0) shapeCasts_S1x2500000_S2500000
/-- Row 1: the column index of each nonzero. -/
def featCols (a : IVec S2x2500000 32) : IVec S2500000 32 :=
  shapeCast S2500000 (extractStridedSlice S1x2500000 ![1, 0] a slices_S2x2500000_S1x2500000_1_0) shapeCasts_S1x2500000_S2500000
/-- Row 0 of the edge array: the node each edge's message is added to. -/
def edgeRows (a : IVec S2x1700000 32) : IVec S1700000 32 :=
  shapeCast S1700000 (extractStridedSlice S1x1700000 ![0, 0] a slices_S2x1700000_S1x1700000_0_0) shapeCasts_S1x1700000_S1700000
/-- Row 1: the node each edge's message is read from. -/
def edgeCols (a : IVec S2x1700000 32) : IVec S1700000 32 :=
  shapeCast S1700000 (extractStridedSlice S1x1700000 ![1, 0] a slices_S2x1700000_S1x1700000_1_0) shapeCasts_S1x1700000_S1700000

/-- A negative row index counts from the end of the 100000 nodes. -/
def wrapRows (r : IVec S2500000 32) : IVec S2500000 32 :=
  select (cmpi .slt r (broadcastInDim S2500000 ![] bcast_S_S2500000 (constantI S_ 32 0#32)))
    (addi r (broadcastInDim S2500000 ![] bcast_S_S2500000 (constantI S_ 32 100000#32))) r
/-- A negative column index counts from the end of the 2048 feature columns. -/
def wrapCols (c : IVec S2500000 32) : IVec S2500000 32 :=
  select (cmpi .slt c (broadcastInDim S2500000 ![] bcast_S_S2500000 (constantI S_ 32 0#32)))
    (addi c (broadcastInDim S2500000 ![] bcast_S_S2500000 (constantI S_ 32 2048#32))) c
/-- A negative node index counts from the end of the 100000 nodes. -/
def wrapNodes (e : IVec S1700000 32) : IVec S1700000 32 :=
  select (cmpi .slt e (broadcastInDim S1700000 ![] bcast_S_S1700000 (constantI S_ 32 0#32)))
    (addi e (broadcastInDim S1700000 ![] bcast_S_S1700000 (constantI S_ 32 100000#32))) e

/-- The dense feature matrix: nonzero `k` adds `v k` to entry `(r k, c k)` of a zero array; then the narrower format. -/
def denseFeatures (r c : IVec S2500000 32) (v : FVec F S2500000 .f32) : FVec F S100000x2048 .bf16 :=
  truncf .bf16 (Host.scatterAdd scatter_S100000x2048_S2500000x2_S2500000_n_01_01_1
      (broadcastInDim S100000x2048 ![] bcast_S_S100000x2048 (constant S_ .f32 0x00000000#32))
      (concatenate S2500000x2 1 [⟨S2500000x1, broadcastInDim S2500000x1 ![0] bcast_S2500000_S2500000x1_0 r⟩,
        ⟨S2500000x1, broadcastInDim S2500000x1 ![0] bcast_S2500000_S2500000x1_0 c⟩] concatenates_S2500000x1_S2500000x1_S2500000x2_d1)
      v) bitsLt_bf16_f32

/-- A bias vector as the one-row array the first call takes. -/
def biasRow64 (b : FVec F S64 .f32) : FVec F S1x64 .f32 := fun i => shapeCast S1x64 b shapeCasts_S64_S1x64 i
/-- A bias vector as the one-row array the second call takes. -/
def biasRow40 (b : FVec F S40 .f32) : FVec F S1x40 .f32 := fun i => shapeCast S1x40 b shapeCasts_S40_S1x40 i

/-- One propagation of 64-wide rows over the edges, the rows read in the narrower format and widened again. -/
def prop64 (er ec : IVec S1700000 32) (w : FVec F S1700000 .f32) (h : FVec F S100000x64 .bf16) : FVec F S100000x64 .f32 :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 er)
    (mulf (broadcastInDim S1700000x64 ![0, 1] bcast_S1700000x1_S1700000x64_0_1 (broadcastInDim S1700000x1 ![0] bcast_S1700000_S1700000x1_0 w))
      (extf .f32 (Host.gather gather_S100000x64_S1700000x1_S1700000x64_1_0_n_n_0_1_164 h (broadcastInDim S1700000x1 ![0] bcast_S1700000_S1700000x1_0 ec)) bitsLt_bf16_f32))

/-- One propagation of 40-wide rows over the edges, likewise. -/
def prop40 (er ec : IVec S1700000 32) (w : FVec F S1700000 .f32) (z : FVec F S100000x40 .bf16) : FVec F S100000x40 .f32 :=
  Host.scatterAdd scatter_S100000x40_S1700000x1_S1700000x40_1_0_0_1
    (broadcastInDim S100000x40 ![] bcast_S_S100000x40 (constant S_ .f32 0x00000000#32))
    (broadcastInDim S1700000x1 ![0] bcast_S1700000_S1700000x1_0 er)
    (mulf (broadcastInDim S1700000x40 ![0, 1] bcast_S1700000x1_S1700000x40_0_1 (broadcastInDim S1700000x1 ![0] bcast_S1700000_S1700000x1_0 w))
      (extf .f32 (Host.gather gather_S100000x40_S1700000x1_S1700000x40_1_0_n_n_0_1_140 z (broadcastInDim S1700000x1 ![0] bcast_S1700000_S1700000x1_0 ec)) bitsLt_bf16_f32))

end Cert.KernelIdeal.Stage

end
-- ==== Proof.Layers.lean ====
import Idealize.ShloMosaic.PureOps.Ideal
import Idealize.ShloMosaic.PureOps.Ideal.Laws
import Idealize.ShloMosaic.Lib.ValueIdx

/-!
# The layers of the network, index by index, on the extended reals

Both programs compute a two-layer graph network's class log-probabilities. Written once here, as functions of whole
arrays read at an index: a dense layer `x · W + b` (row `n` of `x` against column `d` of `W`, plus the bias row), the
rectifier, and the row-wise log-softmax `z − max z − log Σ exp (z − max z)`. The maximum of a row is the fold of the
maximum over the row's entries from `−∞`.
-/

noncomputable section

namespace Cert.Layers

open Idealize.ShloMosaic Idealize.ShloMosaic.ValueIdx

/-- A dense layer: entry `(n, d)` is the sum over `k` of `x (n, k) · W (k, d)`, plus the bias row's entry `d`. -/
def denseBias {N K D : Nat} (x : (⟨2, ![N, K]⟩ : Shape).Idx → EReal) (W : (⟨2, ![K, D]⟩ : Shape).Idx → EReal)
    (b : (⟨2, ![1, D]⟩ : Shape).Idx → EReal) : (⟨2, ![N, D]⟩ : Shape).Idx → EReal :=
  fun i => (∑ k : Fin K, x (ix2 (i 0) k) * W (ix2 k (i 1))) + b (ix2 0 (i 1))

/-- A vector read as a one-row array. -/
def rowOf {D : Nat} (b : (⟨1, ![D]⟩ : Shape).Idx → EReal) : (⟨2, ![1, D]⟩ : Shape).Idx → EReal :=
  fun i => b (ix1 (i 1))

/-- The sparse feature matrix, in coordinate form, times a dense matrix, plus a bias: entry `(n, d)` is the sum, over the
    nonzeros `k` whose row index `r k` is `n`, of `v k · W (c k, d)`, plus `b d`. A column index is read into `W`'s rows
    as a gather reads it: signed, and brought into `[0, 2047]`. The sum starts from the zero the accumulator is filled with. -/
def sparseDense (r c : (⟨1, ![2500000]⟩ : Shape).Idx → BitVec 32) (v : (⟨1, ![2500000]⟩ : Shape).Idx → EReal)
    (W : (⟨2, ![2048, 64]⟩ : Shape).Idx → EReal) (b : (⟨1, ![64]⟩ : Shape).Idx → EReal) :
    (⟨2, ![100000, 64]⟩ : Shape).Idx → EReal :=
  fun i => (Ideal.ofBits .f32 0x00000000#32
      + ∑ k ∈ Finset.univ.filter (fun k : Fin 2500000 => (r (ix1 k)).toInt = ((i 0).val : ℤ)),
          v (ix1 k) * W (ix2 ⟨min (c (ix1 k)).toInt.toNat 2047, by omega⟩ (i 1)))
    + b (ix1 (i 1))

/-- The rectifier, entry by entry. -/
def relu {N D : Nat} (x : (⟨2, ![N, D]⟩ : Shape).Idx → EReal) : (⟨2, ![N, D]⟩ : Shape).Idx → EReal :=
  fun i => max (x i) 0

/-- The largest entry of row `n`: the fold of the maximum over the row from `−∞`. -/
def rowMax {N D : Nat} (z : (⟨2, ![N, D]⟩ : Shape).Idx → EReal) (n : Fin N) : EReal :=
  (Finset.univ : Finset (Fin D)).fold (FloatOps.maximumf (F := Ideal) (φ := .f32))
    (FloatOps.ofBits (F := Ideal) .f32 0xFF800000#32) (fun l => z (ix2 n l))

/-- The row-wise log-softmax: `z − m − log Σₗ exp (z(n, l) − m)` with `m` the row's largest entry. -/
def logSoftmax {N D : Nat} (z : (⟨2, ![N, D]⟩ : Shape).Idx → EReal) : (⟨2, ![N, D]⟩ : Shape).Idx → EReal :=
  fun i => (z i - rowMax z (i 0)) - Ideal.log (∑ l : Fin D, Ideal.exp (z (ix2 (i 0) l) - rowMax z (i 0)))

end Cert.Layers

end
-- ==== Proof.Region0.lean ====
import proofs.«410451_j81449759801465_2_alg».proof.Proof.Gen.KernelIdeal.Frame
import proofs.«410451_j81449759801465_2_alg».proof.Proof.Layers
import Idealize.ShloMosaic.Lib.Pipeline.Value
import Idealize.ShloMosaic.Lib.ValueLayout

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layers

variable (V : (c : Dev nD) → (b : Ref sig .tc) → Buf (Elt Ideal) ((c : Thread nD τ).loc b))

namespace FirstDense

/-! ## The contraction of the first layer's product, axis by axis -/

/-- Row axis of the left operand: the output's row. -/
theorem lhs_dense0_0 (i : S1000x64.Idx) (q : dot_S1000x2048_S2048x64_S1000x64_1_0_0_1_n_n.contr.Idx) :
    (dot_S1000x2048_S2048x64_S1000x64_1_0_0_1_n_n.lhsIdx i q 0).val = (i 0).val := by
  unfold DotDims.lhsIdx
  rw [dif_neg (show ¬(0 : Fin S1000x2048.rank) ∈ dot_S1000x2048_S2048x64_S1000x64_1_0_0_1_n_n.lhsBatch by decide), dif_pos (show (0 : Fin S1000x2048.rank) ∈ dot_S1000x2048_S2048x64_S1000x64_1_0_0_1_n_n.lhsNonContracting by decide)]
  rfl
/-- Column axis of the left operand: the contracted index. -/
theorem lhs_dense0_1 (i : S1000x64.Idx) (q : dot_S1000x2048_S2048x64_S1000x64_1_0_0_1_n_n.contr.Idx) :
    (dot_S1000x2048_S2048x64_S1000x64_1_0_0_1_n_n.lhsIdx i q 1).val = (q ⟨0, by decide⟩).val :=
  dot_S1000x2048_S2048x64_S1000x64_1_0_0_1_n_n.lhsIdx_val_of_single rfl i q
/-- Row axis of the right operand: the contracted index. -/
theorem rhs_dense0_0 (i : S1000x64.Idx) (q : dot_S1000x2048_S2048x64_S1000x64_1_0_0_1_n_n.contr.Idx) :
    (dot_S1000x2048_S2048x64_S1000x64_1_0_0_1_n_n.rhsIdx i q 0).val = (q ⟨0, by decide⟩).val :=
  dot_S1000x2048_S2048x64_S1000x64_1_0_0_1_n_n.rhsIdx_val_of_single rfl i q
/-- Column axis of the right operand: the output's column. -/
theorem rhs_dense0_1 (i : S1000x64.Idx) (q : dot_S1000x2048_S2048x64_S1000x64_1_0_0_1_n_n.contr.Idx) :
    (dot_S1000x2048_S2048x64_S1000x64_1_0_0_1_n_n.rhsIdx i q 1).val = (i 1).val := by
  unfold DotDims.rhsIdx
  rw [dif_neg (show ¬(1 : Fin S2048x64.rank) ∈ dot_S1000x2048_S2048x64_S1000x64_1_0_0_1_n_n.rhsBatch by decide), dif_pos (show (1 : Fin S2048x64.rank) ∈ dot_S1000x2048_S2048x64_S1000x64_1_0_0_1_n_n.rhsNonContracting by decide)]
  rfl

/-- The product of a row block with the weights, into a zero accumulator, at row `p` and column `q`: the sum over the
    2048 contracted indices of the products of the row's and the column's entries. -/
theorem product_entry (x : FVec Ideal S1000x2048 .bf16) (w : FVec Ideal S2048x64 .bf16) (p : Fin 1000) (q : Fin 64) :
    matmul (F := Ideal) dot_S1000x2048_S2048x64_S1000x64_1_0_0_1_n_n none x w (constant (F := Ideal) S1000x64 .f32 0x00000000#32) (ix2 p q)
      = ∑ k : Fin 2048, x (ix2 p k) * w (ix2 k q) := by
  show FloatOps.matmul dot_S1000x2048_S2048x64_S1000x64_1_0_0_1_n_n none x w (constant (F := Ideal) S1000x64 .f32 0x00000000#32) (ix2 p q) = _
  rw [Ideal.matmul_constant_zero_apply, ← Equiv.sum_comp (ValueIdx.contrEquiv1 dot_S1000x2048_S2048x64_S1000x64_1_0_0_1_n_n 2048 rfl rfl).symm]
  refine Finset.sum_congr rfl fun k _ => ?_
  have hk := ValueIdx.contrEquiv1_symm_val dot_S1000x2048_S2048x64_S1000x64_1_0_0_1_n_n 2048 rfl rfl k
  have el : dot_S1000x2048_S2048x64_S1000x64_1_0_0_1_n_n.lhsIdx (ix2 p q) ((ValueIdx.contrEquiv1 dot_S1000x2048_S2048x64_S1000x64_1_0_0_1_n_n 2048 rfl rfl).symm k) = ix2 p k := funext fun a => Fin.ext (by
    match a with
    | ⟨0, _⟩ => exact lhs_dense0_0 _ _
    | ⟨1, _⟩ => exact (lhs_dense0_1 _ _).trans hk)
  have er : dot_S1000x2048_S2048x64_S1000x64_1_0_0_1_n_n.rhsIdx (ix2 p q) ((ValueIdx.contrEquiv1 dot_S1000x2048_S2048x64_S1000x64_1_0_0_1_n_n 2048 rfl rfl).symm k) = ix2 k q := funext fun a => Fin.ext (by
    match a with
    | ⟨0, _⟩ => exact (rhs_dense0_0 _ _).trans hk
    | ⟨1, _⟩ => exact rhs_dense0_1 _ _)
  rw [el, er]

/-- What the body stores, at row `p` and column `q` of the block: the row of the input block against the column of the
    weights, plus the bias row's entry. Changing the float format is the identity on the extended reals. -/
theorem stored_entry (x0 : FVec Ideal S1000x2048 .bf16) (x1 : FVec Ideal S2048x64 .f32) (x2 : FVec Ideal S1x64 .f32) (p : Fin 1000) (q : Fin 64) :
    k0_pay1 (F := Ideal) x0 x1 x2 (ix2 p q) = (∑ k : Fin 2048, x0 (ix2 p k) * x1 (ix2 k q)) + x2 (ix2 (0 : Fin 1) q) := by
  unfold k0_pay1
  rw [truncf_apply, addf_apply, shapeCast_self, shapeCast_self, product_entry, broadcastTo_1b_ab_apply]
  rfl

/-- The dense layer of whole arrays at row `n` and column `q`, with the coordinates named. -/
theorem dense_entry (x : S100000x2048.Idx → EReal) (W : S2048x64.Idx → EReal) (b : S1x64.Idx → EReal) (n : Fin 100000) (q : Fin 64) :
    denseBias x W b (ix2 n q) = (∑ k : Fin 2048, x (ix2 n k) * W (ix2 k q)) + b (ix2 (0 : Fin 1) q) := rfl

/-! ## From the row blocks to the array -/

/-- The offsets of a load or store of a whole block: zero on both axes. -/
theorem offsets_zero : (![0, 0] : Fin 2 → Nat) = fun _ => 0 := funext fun a => by fin_cases a <;> rfl

/-- The grid has 100 points. -/
theorem points : cfg0.N = 100 := by decide

/-- The printed index maps, decided once over the grid: at point `t` the input rows and the output rows are block `t`
    along the rows, and the weights and the bias row are their whole arrays. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input block at point `t` is rows `1000 t … 1000 t + 999` of the input array. -/
theorem rows_block (c : Dev nD) (t : Fin cfg0.N) (p : Fin 1000) (k : Fin 2048) (n : Fin 100000) (hn : n.val = 1000 * t.val + p.val) :
    (iblk0 (F := Ideal) V c 0 t : FVec Ideal S1000x2048 .bf16) (ix2 p k) = (V c main_v23 : S100000x2048.Idx → Elt Ideal .bf16) (ix2 n k) := by
  obtain ⟨e0, e1, -⟩ := block_indices t
  unfold iblk0
  rw [View.read_apply]
  show V c main_v23 _ = V c main_v23 _
  congr 1
  funext a
  apply Fin.ext
  match a with
  | ⟨0, _⟩ => show win0_0.index t (0 : Fin 2) * 1000 + 1 * p.val = n.val; rw [e0, hn]; omega
  | ⟨1, _⟩ => show win0_0.index t (1 : Fin 2) * 2048 + 1 * k.val = k.val; rw [e1]; omega

/-- The weights' block at every point is the whole weight array. -/
theorem weights_block (c : Dev nD) (t : Fin cfg0.N) (k : Fin 2048) (q : Fin 64) :
    (iblk0 (F := Ideal) V c 1 t : FVec Ideal S2048x64 .f32) (ix2 k q) = (V c main_arg4 : S2048x64.Idx → Elt Ideal .f32) (ix2 k q) := by
  obtain ⟨-, -, e0, e1, -⟩ := block_indices t
  unfold iblk0
  rw [View.read_apply]
  show V c main_arg4 _ = V c main_arg4 _
  congr 1
  funext a
  apply Fin.ext
  match a with
  | ⟨0, _⟩ => show win0_1.index t (0 : Fin 2) * 2048 + 1 * k.val = k.val; rw [e0]; omega
  | ⟨1, _⟩ => show win0_1.index t (1 : Fin 2) * 64 + 1 * q.val = q.val; rw [e1]; omega

/-- The bias block at every point is the whole bias row. -/
theorem bias_block (c : Dev nD) (t : Fin cfg0.N) (q : Fin 64) :
    (iblk0 (F := Ideal) V c 2 t : FVec Ideal S1x64 .f32) (ix2 (0 : Fin 1) q) = (V c main_v24 : S1x64.Idx → Elt Ideal .f32) (ix2 (0 : Fin 1) q) := by
  obtain ⟨-, -, -, -, e0, e1, -⟩ := block_indices t
  unfold iblk0
  rw [View.read_apply]
  show V c main_v24 _ = V c main_v24 _
  congr 1
  funext a
  apply Fin.ext
  match a with
  | ⟨0, _⟩ => show win0_2.index t (0 : Fin 2) * 1 + 1 * 0 = 0; rw [e0]
  | ⟨1, _⟩ => show win0_2.index t (1 : Fin 2) * 64 + 1 * q.val = q.val; rw [e1]; omega

/-- What point `t` writes back is block `t` of the dense layer of the three input arrays. -/
theorem written_block (c : Dev nD) (t : Fin cfg0.N) :
    (dat0 (F := Ideal) V c).flushed 3 t
      = ((cfg0.win 3).blk t).view.read (Elt Ideal) (denseBias (V c main_v23) (V c main_arg4) (V c main_v24)) := by
  show (cfg0.win 3).cut (grid0.coords t) ((dat0 (F := Ideal) V c).after 3 t) = _
  rw [after0_3]
  unfold out0_3
  rw [View.canon_unit_zero offsets_zero]
  simp only [View.ld_unit_zero (S := S1000x2048) offsets_zero, View.ld_unit_zero (S := S2048x64) offsets_zero, View.ld_unit_zero (S := S1x64) offsets_zero]
  obtain ⟨-, -, -, -, -, -, e0, e1⟩ := block_indices t
  funext j
  obtain ⟨p, q, rfl⟩ : ∃ (p : Fin 1000) (q : Fin 64), j = ix2 p q := ⟨j 0, j 1, eq_ix2 j⟩
  have hp : p.val < 1000 := p.isLt
  have ht : t.val < 100 := points ▸ t.isLt
  have hx : (cfg0.win 3).xinj (grid0.coords t) (ix2 p q) = ix2 p q := funext fun a => by
    match a with
    | ⟨0, _⟩ => rfl
    | ⟨1, _⟩ => rfl
  have hy : ((cfg0.win 3).blk t).view.emb (ix2 p q) = (ix2 (⟨1000 * t.val + p.val, by omega⟩ : Fin 100000) q : S100000x64.Idx) := funext fun a => Fin.ext (by
    match a with
    | ⟨0, _⟩ => show win0_3.index t (0 : Fin 2) * 1000 + 1 * p.val = 1000 * t.val + p.val; rw [e0]; omega
    | ⟨1, _⟩ => show win0_3.index t (1 : Fin 2) * 64 + 1 * q.val = q.val; rw [e1]; omega)
  show k0_pay1 (F := Ideal) (iblk0 V c 0 t) (iblk0 V c 1 t) (iblk0 V c 2 t) ((cfg0.win 3).xinj (grid0.coords t) (ix2 p q))
    = denseBias (V c main_v23) (V c main_arg4) (V c main_v24) (((cfg0.win 3).blk t).view.emb (ix2 p q))
  rw [hx, hy, stored_entry]
  rw [dense_entry, bias_block]
  refine congrArg (· + _) (Finset.sum_congr rfl fun k _ => ?_)
  rw [rows_block V c t p k ⟨1000 * t.val + p.val, by omega⟩ rfl, weights_block]

/-- An index of the output array is in point `t`'s block iff each coordinate is in the block's range on its axis. -/
theorem mem_block (t : Fin cfg0.N) (i : S100000x64.Idx) :
    i ∈ ((cfg0.win 3).blk t).view.set ↔ ∀ a : Fin 2, win0_3.index t a * S1000x64.size a ≤ (i a).val ∧ (i a).val < win0_3.index t a * S1000x64.size a + S1000x64.size a := by
  show i ∈ ((View.whole main_v25).slice (win0_3.rect t)).set ↔ _
  rw [View.set_slice_whole, Rect.mem_set_unit]
  exact Iff.rfl

/-- Row `r` of the output array is in the block of point `r / 1000`. -/
theorem covered (i : S100000x64.Idx) : ∃ t : Fin cfg0.N, (cfg0.win 3).flush t = true ∧ i ∈ ((cfg0.win 3).blk t).view.set := by
  have h0 : (i 0).val < 100000 := (i 0).isLt
  have h1 : (i 1).val < 64 := (i 1).isLt
  refine ⟨⟨(i 0).val / 1000, by rw [points]; omega⟩, flush0_3 _, ?_⟩
  rw [mem_block]
  obtain ⟨-, -, -, -, -, -, e0, e1⟩ := block_indices ⟨(i 0).val / 1000, by rw [points]; omega⟩
  intro a
  match a with
  | ⟨0, _⟩ =>
    show win0_3.index _ (0 : Fin 2) * 1000 ≤ (i 0).val ∧ (i 0).val < win0_3.index _ (0 : Fin 2) * 1000 + 1000
    rw [e0]; show (i 0).val / 1000 * 1000 ≤ (i 0).val ∧ (i 0).val < (i 0).val / 1000 * 1000 + 1000; omega
  | ⟨1, _⟩ =>
    show win0_3.index _ (1 : Fin 2) * 64 ≤ (i 1).val ∧ (i 1).val < win0_3.index _ (1 : Fin 2) * 64 + 64
    rw [e1]; omega

end FirstDense

/-- After the first region every row block of its output array has been written: the array is the dense layer
    `x · W + b` of the region's three input arrays as it finds them. -/
theorem arr0 (c : Dev nD) :
    (dat0 (F := Ideal) V c).arrAt 3 cfg0.N = denseBias (V c main_v23) (V c main_arg4) (V c main_v24) :=
  (dat0 (F := Ideal) V c).arrAt_eq_of_cover 3 (denseBias (V c main_v23) (V c main_arg4) (V c main_v24))
    (fun t _ => FirstDense.written_block V c t) FirstDense.covered

end Cert.KernelIdeal.RegionValue

end
-- ==== Proof.Region1.lean ====
import proofs.«410451_j81449759801465_2_alg».proof.Proof.Gen.KernelIdeal.Frame
import proofs.«410451_j81449759801465_2_alg».proof.Proof.Layers
import Idealize.ShloMosaic.Lib.Pipeline.Value
import Idealize.ShloMosaic.Lib.ValueLayout

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layers

variable (V : (c : Dev nD) → (b : Ref sig .tc) → Buf (Elt Ideal) ((c : Thread nD τ).loc b))

/-! ## The block product `relu h · W`, entry by entry

The contraction of a `[5000, 64]` block with the `[64, 40]` weights runs over the block's second axis and the weights'
first: output entry `(p, q)` reads the block at `(p, k)` and the weights at `(k, q)`. -/

/-- The left operand's row is the output's row. -/
theorem reluDense_lhs_0 (i : S5000x40.Idx) (q : dot_S5000x64_S64x40_S5000x40_1_0_0_1_n_n.contr.Idx) :
    (dot_S5000x64_S64x40_S5000x40_1_0_0_1_n_n.lhsIdx i q 0).val = (i 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl
/-- The left operand's column is the contraction index. -/
theorem reluDense_lhs_1 (i : S5000x40.Idx) (q : dot_S5000x64_S64x40_S5000x40_1_0_0_1_n_n.contr.Idx) :
    (dot_S5000x64_S64x40_S5000x40_1_0_0_1_n_n.lhsIdx i q 1).val = (q ⟨0, by decide⟩).val :=
  dot_S5000x64_S64x40_S5000x40_1_0_0_1_n_n.lhsIdx_val_of_single rfl i q
/-- The right operand's row is the contraction index. -/
theorem reluDense_rhs_0 (i : S5000x40.Idx) (q : dot_S5000x64_S64x40_S5000x40_1_0_0_1_n_n.contr.Idx) :
    (dot_S5000x64_S64x40_S5000x40_1_0_0_1_n_n.rhsIdx i q 0).val = (q ⟨0, by decide⟩).val :=
  dot_S5000x64_S64x40_S5000x40_1_0_0_1_n_n.rhsIdx_val_of_single rfl i q
/-- The right operand's column is the output's column. -/
theorem reluDense_rhs_1 (i : S5000x40.Idx) (q : dot_S5000x64_S64x40_S5000x40_1_0_0_1_n_n.contr.Idx) :
    (dot_S5000x64_S64x40_S5000x40_1_0_0_1_n_n.rhsIdx i q 1).val = (i 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl

/-- The product into a zero accumulator, at entry `(p, q)`: the sum over `k` of `a (p, k) · w (k, q)`. -/
theorem reluDense_matmul_apply (a : FVec Ideal S5000x64 .bf16) (w : FVec Ideal S64x40 .bf16) (p : Fin 5000) (q : Fin 40) :
    matmul (F := Ideal) dot_S5000x64_S64x40_S5000x40_1_0_0_1_n_n none a w (constant (F := Ideal) S5000x40 .f32 0x00000000#32) (ix2 p q)
      = ∑ k : Fin 64, a (ix2 p k) * w (ix2 k q) := by
  simp only [matmul]
  rw [Ideal.matmul_constant_zero_apply, ← Equiv.sum_comp (ValueIdx.contrEquiv1 dot_S5000x64_S64x40_S5000x40_1_0_0_1_n_n 64 rfl rfl).symm]
  refine Finset.sum_congr rfl fun k _ => ?_
  have hk := ValueIdx.contrEquiv1_symm_val dot_S5000x64_S64x40_S5000x40_1_0_0_1_n_n 64 rfl rfl k
  have el : dot_S5000x64_S64x40_S5000x40_1_0_0_1_n_n.lhsIdx (ix2 p q) ((ValueIdx.contrEquiv1 dot_S5000x64_S64x40_S5000x40_1_0_0_1_n_n 64 rfl rfl).symm k) = ix2 p k := funext fun ax => Fin.ext (by
    match ax with
    | ⟨0, _⟩ => exact reluDense_lhs_0 _ _
    | ⟨1, _⟩ => exact (reluDense_lhs_1 _ _).trans hk)
  have er : dot_S5000x64_S64x40_S5000x40_1_0_0_1_n_n.rhsIdx (ix2 p q) ((ValueIdx.contrEquiv1 dot_S5000x64_S64x40_S5000x40_1_0_0_1_n_n 64 rfl rfl).symm k) = ix2 k q := funext fun ax => Fin.ext (by
    match ax with
    | ⟨0, _⟩ => exact (reluDense_rhs_0 _ _).trans hk
    | ⟨1, _⟩ => exact reluDense_rhs_1 _ _)
  rw [el, er]

/-! ## The body's payload at an entry -/

/-- What the body stores at entry `(p, q)` of its block: the sum over `k` of `max (x0 (p, k)) 0 · x1 (k, q)`, plus the
    bias row's entry `q`. The changes of float format are the identity on the extended reals. -/
theorem reluDense_pay_apply (x0 : Vec Ideal S5000x64 .f32) (x1 : Vec Ideal S64x40 .f32) (x2 : Vec Ideal S1x40 .f32)
    (p : Fin 5000) (q : Fin 40) :
    k1_pay1 (F := Ideal) x0 x1 x2 (ix2 p q) = (∑ k : Fin 64, max (x0 (ix2 p k)) 0 * x1 (ix2 k q)) + x2 (ix2 0 q) := by
  unfold k1_pay1
  simp only [shapeCast_self]
  rw [truncf_apply, addf_apply, reluDense_matmul_apply, broadcastTo_1b_ab_apply]
  simp only [truncf_apply, maximumf_apply, broadcast_apply]
  rw [show (Scalar.ofBits (F := Ideal) .f32 0x00000000#32) = (0 : EReal) from Ideal.ofBits_zero_f32]

/-- The payload's entry is the layer's entry, once each operand's entries are the arrays' entries: row `p` of the
    activations' block is row `i 0` of the array, the weights and the bias row are read in place. -/
theorem reluDense_entry (h : S100000x64.Idx → EReal) (W : S64x40.Idx → EReal) (b : S1x40.Idx → EReal)
    (x0 : Vec Ideal S5000x64 .f32) (x1 : Vec Ideal S64x40 .f32) (x2 : Vec Ideal S1x40 .f32)
    (p : Fin 5000) (q : Fin 40) (i : S100000x40.Idx)
    (h0 : ∀ k : Fin 64, x0 (ix2 p k) = h (ix2 (i 0) k)) (h1 : ∀ k : Fin 64, x1 (ix2 k q) = W (ix2 k (i 1)))
    (h2 : x2 (ix2 0 q) = b (ix2 0 (i 1))) :
    k1_pay1 (F := Ideal) x0 x1 x2 (ix2 p q) = denseBias (relu h) W b i := by
  rw [reluDense_pay_apply]
  unfold denseBias relu
  simp only [h0, h1, h2]

/-! ## Where each window's block sits -/

/-- A block's rectangle in its staging buffer starts at the origin. -/
theorem reluDense_origin : (![0, 0] : Fin 2 → Nat) = fun _ => 0 := funext fun a => by fin_cases a <;> rfl

/-- The index maps over the grid: at point `t` the activations' and the output's block is row block `t` (column block
    0); the weights' and the bias row's block is the whole array at every point. -/
theorem reluDense_idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of the dense layer of the three arrays: rows `5000 t … 5000 t + 4999`. -/
theorem reluDense_flushed (c : Dev nD) (t : Fin cfg1.N) :
    (dat1 (F := Ideal) V c).flushed 3 t
      = ((cfg1.win 3).blk t).view.read (Elt Ideal) (denseBias (relu (V c main_v39)) (V c main_arg6) (V c main_v40)) := by
  show (cfg1.win 3).cut (grid1.coords t) ((dat1 V c).after 3 t) = _
  rw [after1_3]
  unfold out1_3
  rw [View.canon_unit_zero reluDense_origin]
  simp only [View.ld_unit_zero (S := S5000x64) reluDense_origin, View.ld_unit_zero (S := S64x40) reluDense_origin,
    View.ld_unit_zero (S := S1x40) reluDense_origin]
  obtain ⟨e00, e01, e10, e11, e20, e21, e30, e31⟩ := reluDense_idx_facts t
  refine funext fun (j : S5000x40.Idx) => ?_
  obtain ⟨p, q, rfl⟩ : ∃ (p : Fin 5000) (q : Fin 40), j = ix2 p q := ⟨j 0, j 1, eq_ix2 j⟩
  show k1_pay1 (F := Ideal) (iblk1 V c 0 t) (iblk1 V c 1 t) (iblk1 V c 2 t) (ix2 p q)
    = denseBias (relu (V c main_v39)) (V c main_arg6) (V c main_v40) (((cfg1.win 3).blk t).view.emb (ix2 p q))
  refine reluDense_entry _ _ _ _ _ _ p q _ (fun k => ?_) (fun k => ?_) ?_
  · show V c main_v39 (((cfg1.win 0).blk t).view.emb (ix2 p k)) = V c main_v39 _
    refine congrArg (V c main_v39 : S100000x64.Idx → EReal) (funext fun a => Fin.ext ?_)
    match a with
    | ⟨0, _⟩ => show win1_0.index t (0 : Fin 2) * 5000 + 1 * p.val = win1_3.index t (0 : Fin 2) * 5000 + 1 * p.val; rw [e00, e30]
    | ⟨1, _⟩ => show win1_0.index t (1 : Fin 2) * 64 + 1 * k.val = k.val; rw [e01]; omega
  · show V c main_arg6 (((cfg1.win 1).blk t).view.emb (ix2 k q)) = V c main_arg6 _
    refine congrArg (V c main_arg6 : S64x40.Idx → EReal) (funext fun a => Fin.ext ?_)
    match a with
    | ⟨0, _⟩ => show win1_1.index t (0 : Fin 2) * 64 + 1 * k.val = k.val; rw [e10]; omega
    | ⟨1, _⟩ => show win1_1.index t (1 : Fin 2) * 40 + 1 * q.val = win1_3.index t (1 : Fin 2) * 40 + 1 * q.val; rw [e11, e31]
  · show V c main_v40 (((cfg1.win 2).blk t).view.emb (ix2 0 q)) = V c main_v40 _
    refine congrArg (V c main_v40 : S1x40.Idx → EReal) (funext fun a => Fin.ext ?_)
    match a with
    | ⟨0, _⟩ => show win1_2.index t (0 : Fin 2) * 1 + 1 * 0 = 0; rw [e20]
    | ⟨1, _⟩ => show win1_2.index t (1 : Fin 2) * 40 + 1 * q.val = win1_3.index t (1 : Fin 2) * 40 + 1 * q.val; rw [e21, e31]

/-! ## The blocks cover the array -/

/-- An index of the array is in point `t`'s block iff each coordinate is in the block's range on its axis. -/
theorem reluDense_mem_blk (t : Fin cfg1.N) (i : S100000x40.Idx) :
    i ∈ ((cfg1.win 3).blk t).view.set ↔ ∀ a : Fin 2, win1_3.index t a * S5000x40.size a ≤ (i a).val
      ∧ (i a).val < win1_3.index t a * S5000x40.size a + S5000x40.size a := by
  show i ∈ ((View.whole main_v41).slice (win1_3.rect t)).set ↔ _
  rw [View.set_slice_whole, Rect.mem_set_unit]
  exact Iff.rfl

/-- Row `r` lies in the block of point `r / 5000`, and every point writes its block back: the twenty blocks cover the
    array. -/
theorem reluDense_cover (i : S100000x40.Idx) :
    ∃ t : Fin cfg1.N, (cfg1.win 3).flush t = true ∧ i ∈ ((cfg1.win 3).blk t).view.set := by
  have hi0 : (i 0).val < 100000 := (i 0).isLt
  have hi1 : (i 1).val < 40 := (i 1).isLt
  have ht : (i 0).val / 5000 < cfg1.N := by show (i 0).val / 5000 < 20; omega
  obtain ⟨-, -, -, -, -, -, e30, e31⟩ := reluDense_idx_facts ⟨(i 0).val / 5000, ht⟩
  refine ⟨⟨(i 0).val / 5000, ht⟩, flush1_3 _, ?_⟩
  rw [reluDense_mem_blk]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win1_3.index ⟨(i 0).val / 5000, ht⟩ (1 : Fin 2) * 40 ≤ (i 1).val
      ∧ (i 1).val < win1_3.index ⟨(i 0).val / 5000, ht⟩ (1 : Fin 2) * 40 + 40
    rw [e31]
    omega

/-- After the second region every row block of its output array has been written: the array is the dense layer
    `relu h · W + b` of the region's three input arrays as it finds them. -/
theorem arr1 (c : Dev nD) :
    (dat1 (F := Ideal) V c).arrAt 3 cfg1.N = denseBias (relu (V c main_v39)) (V c main_arg6) (V c main_v40) := by
  exact (dat1 (F := Ideal) V c).arrAt_eq_of_cover 3 _ (fun t _ => reluDense_flushed V c t) reluDense_cover

end Cert.KernelIdeal.RegionValue

end
-- ==== Proof.Region2.lean ====
import proofs.«410451_j81449759801465_2_alg».proof.Proof.Gen.KernelIdeal.Frame
import proofs.«410451_j81449759801465_2_alg».proof.Proof.Layers
import Idealize.ShloMosaic.Lib.Pipeline.Value
import Idealize.ShloMosaic.Lib.ValueLayout
import Idealize.ShloMosaic.PureOps.Reduce

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layers

variable (V : (c : Dev nD) → (b : Ref sig .tc) → Buf (Elt Ideal) ((c : Thread nD τ).loc b))

namespace LogSoftmaxBlock

/-! ## The two keepdims layout forms, read at an index given by coordinates -/

section Keepdims
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, q)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Keepdims

/-! ## The body's value at an entry of the block -/

/-- The exponential of a vector at an index is the exponential of the entry. -/
theorem exp_at {s : Shape} {φ : FTy} (a : FVec Ideal s φ) (i : s.Idx) : exp a i = Ideal.exp (a i) := rfl
/-- The logarithm of a vector at an index is the logarithm of the entry. -/
theorem log_at {s : Shape} {φ : FTy} (a : FVec Ideal s φ) (i : s.Idx) : log a i = Ideal.log (a i) := rfl

/-- Row `p` of the block with column `l` put back on the reduced axis is the entry `(p, l)`. -/
theorem lift_row (h : S5000x40.Reduces [1] S5000) (p : Fin 5000) (l : Fin 40) : h.lift (ix1 p) l = ix2 p l :=
  funext fun a => Fin.ext (by match a with | ⟨0, _⟩ => rfl | ⟨1, _⟩ => rfl)

/-- The row maximum the body takes: at row `p`, the fold of the maximum over the row's 40 entries from `−∞`. -/
theorem rowMax_block (x : FVec Ideal S5000x40 .f32) (h : S5000x40.Reduces [1] S5000) (hφ : FKind.Formats .f32)
    (hacc : (0xFF800000#32 : BitVec 32) = FKind.maximumf.neutral .f32 hφ) (p : Fin 5000) :
    multiReduction .maximumf [1] S5000 x 0xFF800000#32 h hφ hacc (ix1 p) = rowMax x p := by
  rw [multiReduction_maximumf_eq_fold, h.fold_filter_drop_single]
  unfold rowMax
  exact congrArg (fun f => Finset.fold FloatOps.maximumf (FloatOps.ofBits FTy.f32 0xFF800000#32) f (Finset.univ : Finset (Fin 40)))
    (funext fun l => congrArg x (lift_row h p l))

/-- The row sum the body takes: at row `p`, the sum of the row's 40 entries (the accumulator is the sum's neutral element). -/
theorem rowSum_block (e : FVec Ideal S5000x40 .f32) (h : S5000x40.Reduces [1] S5000) (hφ : FKind.Formats .f32)
    (hacc : (0x00000000#32 : BitVec 32) = FKind.add.neutral .f32 hφ) (p : Fin 5000) :
    multiReduction .add [1] S5000 e 0x00000000#32 h hφ hacc (ix1 p) = ∑ l : Fin 40, e (ix2 p l) :=
  (Ideal.multiReduction_add_single e _ h hφ hacc (ix1 p)).trans
    (Finset.sum_congr rfl fun l _ => congrArg e (lift_row h p l))

/-- The body's value at entry `(p, q)` of a block `x`: the entry less its row's maximum, less the logarithm of the row's sum of
    exponentials of such differences. -/
theorem body_apply (x : Vec Ideal S5000x40 .f32) (p : Fin 5000) (q : Fin 40) :
    k2_pay1 (F := Ideal) x (ix2 p q)
      = (x (ix2 p q) - rowMax x p) - Ideal.log (∑ l : Fin 40, Ideal.exp (x (ix2 p l) - rowMax x p)) := by
  unfold k2_pay1
  simp only [shapeCast_self]
  -- the block with each row's maximum taken off, at an entry
  have hm : ∀ (r : Fin 5000) (l : Fin 40),
      subf x (broadcastTo S5000x40 (shapeCast S5000x1
          (multiReduction (F := Ideal) .maximumf [1] S5000 x 0xFF800000#32 reduces_S5000x40_S5000 (.inl rfl) rfl)
          shapeCasts_S5000_S5000x1) broadcasts_S5000x1_S5000x40) (ix2 r l) = x (ix2 r l) - rowMax x r := by
    intro r l
    rw [subf_apply, broadcastTo_a1_ab_apply, shapeCast_a_a1_apply]
    exact congrArg (x (ix2 r l) - ·) (rowMax_block x _ _ _ r)
  rw [subf_apply, hm, broadcastTo_a1_ab_apply, log_at, shapeCast_a_a1_apply]
  refine congrArg (fun s => x (ix2 p q) - rowMax x p - Ideal.log s) ?_
  refine (rowSum_block _ _ _ _ p).trans (Finset.sum_congr rfl fun l _ => ?_)
  rw [exp_at, hm]

/-! ## From the blocks to the array -/

/-- The log-softmax at an entry given by coordinates. -/
theorem logSoftmax_apply {N D : Nat} (z : (⟨2, ![N, D]⟩ : Shape).Idx → EReal) (n : Fin N) (d : Fin D) :
    logSoftmax z (ix2 n d)
      = (z (ix2 n d) - rowMax z n) - Ideal.log (∑ l : Fin D, Ideal.exp (z (ix2 n l) - rowMax z n)) := rfl

/-- A block `x` that holds rows `5000·t … 5000·t + 4999` of an array `z` has, at its entry `(p, q)`, the body's value equal to
    the array's log-softmax at row `5000·t + p`: a row's maximum and its sum of exponentials read that row only. -/
theorem body_rows_eq_logSoftmax (x : Vec Ideal S5000x40 .f32) (z : S100000x40.Idx → EReal) (t : ℕ)
    (hx : ∀ (p : Fin 5000) (l : Fin 40) (r : Fin 100000), r.val = 5000 * t + p.val → x (ix2 p l) = z (ix2 r l))
    (p : Fin 5000) (q : Fin 40) (r : Fin 100000) (hr : r.val = 5000 * t + p.val) :
    (x (ix2 p q) - rowMax x p) - Ideal.log (∑ l : Fin 40, Ideal.exp (x (ix2 p l) - rowMax x p)) = logSoftmax z (ix2 r q) := by
  have hrow : rowMax x p = rowMax z r := by
    unfold rowMax
    exact congrArg (fun f => Finset.fold FloatOps.maximumf (FloatOps.ofBits FTy.f32 0xFF800000#32) f (Finset.univ : Finset (Fin 40)))
      (funext fun l => hx p l r hr)
  rw [logSoftmax_apply, hrow, hx p q r hr]
  exact congrArg (fun s => z (ix2 r q) - rowMax z r - Ideal.log s) (Finset.sum_congr rfl fun l _ => by rw [hx p l r hr])

/-- The body's one access starts at the block's origin. -/
theorem origin_eq_zero : (![0, 0] : Fin 2 → Nat) = fun _ => 0 := funext fun a => by fin_cases a <;> rfl

/-- The printed index maps, decided over the 20 grid points: point `t` reads and writes row block `t`, column block 0. -/
theorem block_index : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- The input window's block at point `t` is rows `5000·t … 5000·t + 4999` of the region's input array. -/
theorem inputBlock_apply (c : Dev nD) (t : Fin cfg2.N) (p : Fin 5000) (l : Fin 40) (r : Fin 100000)
    (hr : r.val = 5000 * t.val + p.val) :
    (iblk2 (F := Ideal) V c 0 t : Vec Ideal S5000x40 .f32) (ix2 p l) = (V c main_v55 : S100000x40.Idx → EReal) (ix2 r l) := by
  obtain ⟨e0, e1, -, -⟩ := block_index t
  unfold iblk2
  rw [View.read_apply]
  show V c main_v55 _ = V c main_v55 _
  congr 1
  funext a
  apply Fin.ext
  -- a block's coordinate is block index × block size + the coordinate inside the block
  match a with
  | ⟨0, _⟩ => show win2_0.index t (0 : Fin 2) * 5000 + 1 * p.val = r.val; rw [e0, hr]; omega
  | ⟨1, _⟩ => show win2_0.index t (1 : Fin 2) * 40 + 1 * l.val = l.val; rw [e1]; omega

/-- What point `t` writes back is block `t` of the log-softmax of the region's input array. -/
theorem writeback_eq_logSoftmax_block (c : Dev nD) (t : Fin cfg2.N) :
    (dat2 (F := Ideal) V c).flushed 1 t = ((cfg2.win 1).blk t).view.read (Elt Ideal) (logSoftmax (V c main_v55)) := by
  show (cfg2.win 1).cut (grid2.coords t) ((dat2 V c).after 1 t) = _
  rw [after2_1]
  unfold out2_1
  rw [View.canon_unit_zero origin_eq_zero]
  simp only [View.ld_unit_zero (S := S5000x40) origin_eq_zero]
  obtain ⟨-, -, e2, e3⟩ := block_index t
  have hN : t.val < 20 := lt_of_lt_of_eq t.isLt (show cfg2.N = 20 from N_2)
  funext j
  show k2_pay1 (F := Ideal) (iblk2 V c 0 t) j = logSoftmax (V c main_v55) (((cfg2.win 1).blk t).view.emb j)
  have hj0 : (j 0).val < 5000 := (j 0).isLt
  have hj1 : (j 1).val < 40 := (j 1).isLt
  -- entry `(p, q)` of the output's block `t` is entry `(5000·t + p, q)` of the array
  have hemb : ((cfg2.win 1).blk t).view.emb j
      = ix2 (⟨5000 * t.val + (j 0).val, by omega⟩ : Fin 100000) (⟨(j 1).val, hj1⟩ : Fin 40) := by
    funext a
    apply Fin.ext
    match a with
    | ⟨0, _⟩ => show win2_1.index t (0 : Fin 2) * 5000 + 1 * (j 0).val = 5000 * t.val + (j 0).val; rw [e2]; omega
    | ⟨1, _⟩ => show win2_1.index t (1 : Fin 2) * 40 + 1 * (j 1).val = (j 1).val; rw [e3]; omega
  rw [hemb]
  refine (congrArg (k2_pay1 (F := Ideal) (iblk2 V c 0 t)) (eq_ix2 j)).trans ?_
  refine (body_apply (iblk2 V c 0 t) ⟨(j 0).val, hj0⟩ ⟨(j 1).val, hj1⟩).trans ?_
  exact body_rows_eq_logSoftmax (iblk2 V c 0 t) (V c main_v55) t.val (fun p l r hr => inputBlock_apply V c t p l r hr) _ _ _ rfl

/-- An index of the output array is in point `t`'s block iff each coordinate is in the block's range on its axis. -/
theorem mem_rowBlock_iff (t : Fin cfg2.N) (i : S100000x40.Idx) :
    i ∈ ((cfg2.win 1).blk t).view.set ↔ ∀ a : Fin 2, win2_1.index t a * S5000x40.size a ≤ (i a).val
      ∧ (i a).val < win2_1.index t a * S5000x40.size a + S5000x40.size a := by
  show i ∈ ((View.whole main_v56).slice (win2_1.rect t)).set ↔ _
  rw [View.set_slice_whole, Rect.mem_set_unit]
  exact Iff.rfl

/-- Every index of the output array is in some point's block: row `r` lies in the block of point `r / 5000`. -/
theorem rowBlocks_cover (i : S100000x40.Idx) :
    ∃ t : Fin cfg2.N, (cfg2.win 1).flush t = true ∧ i ∈ ((cfg2.win 1).blk t).view.set := by
  have hi0 : (i 0).val < 100000 := (i 0).isLt
  have hi1 : (i 1).val < 40 := (i 1).isLt
  obtain ⟨t, ht⟩ : ∃ t : Fin cfg2.N, t.val = (i 0).val / 5000 :=
    ⟨⟨(i 0).val / 5000, lt_of_lt_of_eq (by omega : (i 0).val / 5000 < 20) (show cfg2.N = 20 from N_2).symm⟩, rfl⟩
  obtain ⟨-, -, e2, e3⟩ := block_index t
  refine ⟨t, flush2_1 t, ?_⟩
  rw [mem_rowBlock_iff]
  intro a
  match a with
  | ⟨0, _⟩ =>
    show win2_1.index t (0 : Fin 2) * 5000 ≤ (i 0).val ∧ (i 0).val < win2_1.index t (0 : Fin 2) * 5000 + 5000
    rw [e2, ht]; omega
  | ⟨1, _⟩ =>
    show win2_1.index t (1 : Fin 2) * 40 ≤ (i 1).val ∧ (i 1).val < win2_1.index t (1 : Fin 2) * 40 + 40
    rw [e3]; omega

end LogSoftmaxBlock

/-- After the third region every row block of its output array has been written: the array is the row-wise
    log-softmax of the region's input array as it finds it. -/
theorem arr2 (c : Dev nD) :
    (dat2 (F := Ideal) V c).arrAt 1 cfg2.N = logSoftmax (V c main_v55) :=
  (dat2 V c).arrAt_eq_of_cover 1 (logSoftmax (V c main_v55))
    (fun t _ => LogSoftmaxBlock.writeback_eq_logSoftmax_block V c t) LogSoftmaxBlock.rowBlocks_cover

end Cert.KernelIdeal.RegionValue

end
-- ==== Proof.KernelValue.lean ====
import proofs.«410451_j81449759801465_2_alg».proof.Proof.KernelRun
import proofs.«410451_j81449759801465_2_alg».proof.Proof.KernelStages
import proofs.«410451_j81449759801465_2_alg».proof.Proof.Region0
import proofs.«410451_j81449759801465_2_alg».proof.Proof.Region1
import proofs.«410451_j81449759801465_2_alg».proof.Proof.Region2
import Idealize.ShloMosaic.Lib.StableHlo.Run

/-!
# What the kernel program leaves in its result buffer

The kernel program is three pipelined calls among three stretches of host operations. Each stretch leaves, in the
buffers the next call reads, one function of what it found; each call leaves in its output array the layer the region
lemmas name. Walking the boundaries from the launch memory to the return: the result buffer holds the log-softmax of the
second propagation of the second dense layer of the first propagation of the first dense layer of the scattered
feature matrix.
-/

set_option maxRecDepth 16384

noncomputable section

namespace Cert.KernelIdeal.Gen

open Idealize.ShloMosaic Idealize.ShloMosaic.TcCoe Idealize.SL.Sem Idealize.ShloMosaic.StableHlo
open Cert.KernelIdeal.RegionValue Cert.Layers

section Stretches

variable {F : FTy → Type} [FloatOps F]

/-! ## The stretch before the first call -/

theorem hostOps0_main_v23 (W : Valuation τ sig (Elt F)) : StableHlo.after hostOps0 W (Proc.devRef .tc main_v23) =
    Stage.denseFeatures (Stage.wrapRows (Stage.featRows (W (Proc.devRef .tc main_arg0)))) (Stage.wrapCols (Stage.featCols (W (Proc.devRef .tc main_arg0))))
      (W (Proc.devRef .tc main_arg1)) := by
  after_results_simp <;> rfl
theorem hostOps0_main_v24 (W : Valuation τ sig (Elt F)) : StableHlo.after hostOps0 W (Proc.devRef .tc main_v24) = Stage.biasRow64 (W (Proc.devRef .tc main_arg5)) := by
  after_results_simp <;> rfl
theorem hostOps0_main_v5 (W : Valuation τ sig (Elt F)) : StableHlo.after hostOps0 W (Proc.devRef .tc main_v5) = Stage.edgeRows (W (Proc.devRef .tc main_arg2)) := by
  after_results_simp <;> rfl
theorem hostOps0_main_v7 (W : Valuation τ sig (Elt F)) : StableHlo.after hostOps0 W (Proc.devRef .tc main_v7) = Stage.edgeCols (W (Proc.devRef .tc main_arg2)) := by
  after_results_simp <;> rfl
theorem hostOps0_main_arg3 (W : Valuation τ sig (Elt F)) : StableHlo.after hostOps0 W (Proc.devRef .tc main_arg3) = W (Proc.devRef .tc main_arg3) := by after_results_simp
theorem hostOps0_main_arg4 (W : Valuation τ sig (Elt F)) : StableHlo.after hostOps0 W (Proc.devRef .tc main_arg4) = W (Proc.devRef .tc main_arg4) := by after_results_simp
theorem hostOps0_main_arg6 (W : Valuation τ sig (Elt F)) : StableHlo.after hostOps0 W (Proc.devRef .tc main_arg6) = W (Proc.devRef .tc main_arg6) := by after_results_simp
theorem hostOps0_main_arg7 (W : Valuation τ sig (Elt F)) : StableHlo.after hostOps0 W (Proc.devRef .tc main_arg7) = W (Proc.devRef .tc main_arg7) := by after_results_simp

/-! ## The stretch between the first and the second call -/

theorem hostOps1_main_v39 (W : Valuation τ sig (Elt F)) : StableHlo.after hostOps1 W (Proc.devRef .tc main_v39) =
    Stage.prop64 (W (Proc.devRef .tc main_v5)) (Stage.wrapNodes (W (Proc.devRef .tc main_v7))) (W (Proc.devRef .tc main_arg3)) (W (Proc.devRef .tc main_v25)) := by
  after_results_simp <;> rfl
theorem hostOps1_main_v40 (W : Valuation τ sig (Elt F)) : StableHlo.after hostOps1 W (Proc.devRef .tc main_v40) = Stage.biasRow40 (W (Proc.devRef .tc main_arg7)) := by
  after_results_simp <;> rfl
theorem hostOps1_main_v5 (W : Valuation τ sig (Elt F)) : StableHlo.after hostOps1 W (Proc.devRef .tc main_v5) = W (Proc.devRef .tc main_v5) := by after_results_simp
theorem hostOps1_main_v7 (W : Valuation τ sig (Elt F)) : StableHlo.after hostOps1 W (Proc.devRef .tc main_v7) = W (Proc.devRef .tc main_v7) := by after_results_simp
theorem hostOps1_main_arg3 (W : Valuation τ sig (Elt F)) : StableHlo.after hostOps1 W (Proc.devRef .tc main_arg3) = W (Proc.devRef .tc main_arg3) := by after_results_simp
theorem hostOps1_main_arg6 (W : Valuation τ sig (Elt F)) : StableHlo.after hostOps1 W (Proc.devRef .tc main_arg6) = W (Proc.devRef .tc main_arg6) := by after_results_simp

/-! ## The stretch between the second and the third call -/

theorem hostOps2_main_v55 (W : Valuation τ sig (Elt F)) : StableHlo.after hostOps2 W (Proc.devRef .tc main_v55) =
    Stage.prop40 (W (Proc.devRef .tc main_v5)) (Stage.wrapNodes (W (Proc.devRef .tc main_v7))) (W (Proc.devRef .tc main_arg3)) (W (Proc.devRef .tc main_v41)) := by
  after_results_simp <;> rfl

end Stretches

/-! ## The boundaries, from the launch memory on -/

variable (m : (ℓ : Loc nD τ sig) → Buf (Elt Ideal) ℓ) (ρ : Dev nD → PrngReg) (c : Dev nD)

theorem W1_main_v23 : W1 m ρ c (Proc.devRef .tc main_v23) =
    Stage.denseFeatures (F := Ideal) (Stage.wrapRows (Stage.featRows (m ((c : Thread nD τ).loc main_arg0)))) (Stage.wrapCols (Stage.featCols (m ((c : Thread nD τ).loc main_arg0)))) (m ((c : Thread nD τ).loc main_arg1)) :=
  hostOps0_main_v23 _
theorem W1_main_v24 : W1 m ρ c (Proc.devRef .tc main_v24) = Stage.biasRow64 (F := Ideal) (m ((c : Thread nD τ).loc main_arg5)) := hostOps0_main_v24 _
theorem W1_main_arg4 : W1 m ρ c (Proc.devRef .tc main_arg4) = (m ((c : Thread nD τ).loc main_arg4)) := hostOps0_main_arg4 _
theorem W1_main_v5 : W1 m ρ c (Proc.devRef .tc main_v5) = Stage.edgeRows (m ((c : Thread nD τ).loc main_arg2)) := hostOps0_main_v5 _
theorem W1_main_v7 : W1 m ρ c (Proc.devRef .tc main_v7) = Stage.edgeCols (m ((c : Thread nD τ).loc main_arg2)) := hostOps0_main_v7 _
theorem W1_main_arg3 : W1 m ρ c (Proc.devRef .tc main_arg3) = (m ((c : Thread nD τ).loc main_arg3)) := hostOps0_main_arg3 _
theorem W1_main_arg6 : W1 m ρ c (Proc.devRef .tc main_arg6) = (m ((c : Thread nD τ).loc main_arg6)) := hostOps0_main_arg6 _
theorem W1_main_arg7 : W1 m ρ c (Proc.devRef .tc main_arg7) = (m ((c : Thread nD τ).loc main_arg7)) := hostOps0_main_arg7 _

/-- The first call's output array: the dense layer of the scattered feature matrix. -/
theorem W2_main_v25 : W2 m ρ c (Proc.devRef .tc main_v25) =
    denseBias (Stage.denseFeatures (F := Ideal) (Stage.wrapRows (Stage.featRows (m ((c : Thread nD τ).loc main_arg0)))) (Stage.wrapCols (Stage.featCols (m ((c : Thread nD τ).loc main_arg0)))) (m ((c : Thread nD τ).loc main_arg1)))
      (m ((c : Thread nD τ).loc main_arg4)) (Stage.biasRow64 (F := Ideal) (m ((c : Thread nD τ).loc main_arg5))) := by
  refine (W2_arr m ρ c 3).trans ?_
  rw [arr0 (V1 m ρ) c]
  show denseBias (W1 m ρ c (Proc.devRef .tc main_v23)) (W1 m ρ c (Proc.devRef .tc main_arg4)) (W1 m ρ c (Proc.devRef .tc main_v24)) = _
  rw [W1_main_v23, W1_main_arg4, W1_main_v24]
theorem W2_main_v5 : W2 m ρ c (Proc.devRef .tc main_v5) = Stage.edgeRows (m ((c : Thread nD τ).loc main_arg2)) := (W2_of_ne m ρ c main_v5 (by decide)).trans (W1_main_v5 m ρ c)
theorem W2_main_v7 : W2 m ρ c (Proc.devRef .tc main_v7) = Stage.edgeCols (m ((c : Thread nD τ).loc main_arg2)) := (W2_of_ne m ρ c main_v7 (by decide)).trans (W1_main_v7 m ρ c)
theorem W2_main_arg3 : W2 m ρ c (Proc.devRef .tc main_arg3) = (m ((c : Thread nD τ).loc main_arg3)) := (W2_of_ne m ρ c main_arg3 (by decide)).trans (W1_main_arg3 m ρ c)
theorem W2_main_arg6 : W2 m ρ c (Proc.devRef .tc main_arg6) = (m ((c : Thread nD τ).loc main_arg6)) := (W2_of_ne m ρ c main_arg6 (by decide)).trans (W1_main_arg6 m ρ c)
theorem W2_main_arg7 : W2 m ρ c (Proc.devRef .tc main_arg7) = (m ((c : Thread nD τ).loc main_arg7)) := (W2_of_ne m ρ c main_arg7 (by decide)).trans (W1_main_arg7 m ρ c)

theorem W3_main_v39 : W3 m ρ c (Proc.devRef .tc main_v39) =
    Stage.prop64 (F := Ideal) (Stage.edgeRows (m ((c : Thread nD τ).loc main_arg2))) (Stage.wrapNodes (Stage.edgeCols (m ((c : Thread nD τ).loc main_arg2)))) (m ((c : Thread nD τ).loc main_arg3)) (W2 m ρ c (Proc.devRef .tc main_v25)) := by
  refine (hostOps1_main_v39 _).trans ?_
  rw [W2_main_v5, W2_main_v7, W2_main_arg3]
theorem W3_main_v40 : W3 m ρ c (Proc.devRef .tc main_v40) = Stage.biasRow40 (F := Ideal) (m ((c : Thread nD τ).loc main_arg7)) := by
  refine (hostOps1_main_v40 _).trans ?_
  rw [W2_main_arg7]
theorem W3_main_arg6 : W3 m ρ c (Proc.devRef .tc main_arg6) = (m ((c : Thread nD τ).loc main_arg6)) := (hostOps1_main_arg6 _).trans (W2_main_arg6 m ρ c)
theorem W3_main_v5 : W3 m ρ c (Proc.devRef .tc main_v5) = Stage.edgeRows (m ((c : Thread nD τ).loc main_arg2)) := (hostOps1_main_v5 _).trans (W2_main_v5 m ρ c)
theorem W3_main_v7 : W3 m ρ c (Proc.devRef .tc main_v7) = Stage.edgeCols (m ((c : Thread nD τ).loc main_arg2)) := (hostOps1_main_v7 _).trans (W2_main_v7 m ρ c)
theorem W3_main_arg3 : W3 m ρ c (Proc.devRef .tc main_arg3) = (m ((c : Thread nD τ).loc main_arg3)) := (hostOps1_main_arg3 _).trans (W2_main_arg3 m ρ c)

/-- The second call's output array: the dense layer of the rectified first propagation. -/
theorem W4_main_v41 : W4 m ρ c (Proc.devRef .tc main_v41) =
    denseBias (relu (Stage.prop64 (F := Ideal) (Stage.edgeRows (m ((c : Thread nD τ).loc main_arg2))) (Stage.wrapNodes (Stage.edgeCols (m ((c : Thread nD τ).loc main_arg2)))) (m ((c : Thread nD τ).loc main_arg3)) (W2 m ρ c (Proc.devRef .tc main_v25))))
      (m ((c : Thread nD τ).loc main_arg6)) (Stage.biasRow40 (F := Ideal) (m ((c : Thread nD τ).loc main_arg7))) := by
  refine (W4_arr m ρ c 3).trans ?_
  rw [arr1 (V3 m ρ) c]
  show denseBias (relu (W3 m ρ c (Proc.devRef .tc main_v39))) (W3 m ρ c (Proc.devRef .tc main_arg6)) (W3 m ρ c (Proc.devRef .tc main_v40)) = _
  rw [W3_main_v39, W3_main_arg6, W3_main_v40]
theorem W4_main_v5 : W4 m ρ c (Proc.devRef .tc main_v5) = Stage.edgeRows (m ((c : Thread nD τ).loc main_arg2)) := (W4_of_ne m ρ c main_v5 (by decide)).trans (W3_main_v5 m ρ c)
theorem W4_main_v7 : W4 m ρ c (Proc.devRef .tc main_v7) = Stage.edgeCols (m ((c : Thread nD τ).loc main_arg2)) := (W4_of_ne m ρ c main_v7 (by decide)).trans (W3_main_v7 m ρ c)
theorem W4_main_arg3 : W4 m ρ c (Proc.devRef .tc main_arg3) = (m ((c : Thread nD τ).loc main_arg3)) := (W4_of_ne m ρ c main_arg3 (by decide)).trans (W3_main_arg3 m ρ c)

theorem W5_main_v55 : W5 m ρ c (Proc.devRef .tc main_v55) =
    Stage.prop40 (F := Ideal) (Stage.edgeRows (m ((c : Thread nD τ).loc main_arg2))) (Stage.wrapNodes (Stage.edgeCols (m ((c : Thread nD τ).loc main_arg2)))) (m ((c : Thread nD τ).loc main_arg3)) (W4 m ρ c (Proc.devRef .tc main_v41)) := by
  refine (hostOps2_main_v55 _).trans ?_
  rw [W4_main_v5, W4_main_v7, W4_main_arg3]

/-- The result buffer at the return: the log-softmax of the second propagation. -/
theorem W6_main_v56 : W6 m ρ c (Proc.devRef .tc main_v56) =
    logSoftmax (Stage.prop40 (F := Ideal) (Stage.edgeRows (m ((c : Thread nD τ).loc main_arg2))) (Stage.wrapNodes (Stage.edgeCols (m ((c : Thread nD τ).loc main_arg2)))) (m ((c : Thread nD τ).loc main_arg3)) (W4 m ρ c (Proc.devRef .tc main_v41))) := by
  refine (W6_arr m ρ c 1).trans ?_
  rw [arr2 (V5 m ρ) c]
  show logSoftmax (W5 m ρ c (Proc.devRef .tc main_v55)) = _
  rw [W5_main_v55]

end Cert.KernelIdeal.Gen

end
-- ==== Proof.KernelLayer1.lean ====
import proofs.«410451_j81449759801465_2_alg».proof.Proof.KernelStages
import proofs.«410451_j81449759801465_2_alg».proof.Proof.Layers
import Idealize.ShloMosaic.Lib.ValueIdx
import Idealize.ShloMosaic.Lib.Pipeline.Value
import Idealize.ShloMosaic.PureOps.Ideal.Laws

noncomputable section

namespace Cert.KernelIdeal.StageValue

open Idealize.ShloMosaic Idealize.ShloMosaic.TcCoe Idealize.ShloMosaic.ValueIdx
open Cert.KernelIdeal Cert.KernelIdeal.Gen

/-- The host's accumulating scatter read at an index, at the ideal values: the operand's entry plus the sum of the
    updates that land there. -/
theorem scatterAdd_apply {s si u : Shape} {w : Nat} (d : ScatterDims s si u) (x : FVec Ideal s .f32) (idx : IVec si w)
    (upd : FVec Ideal u .f32) (i : s.Idx) :
    Host.scatterAdd (F := Ideal) d x idx upd i
      = x i + ∑ j ∈ Finset.univ.filter (fun j => d.resultIdx? j idx = some i), upd j := rfl

/-- A scalar zero broadcast to any shape reads `0` everywhere. -/
theorem zeros_apply {s : Shape} (h : S_.BroadcastsInDim s (![] : Fin 0 → Fin s.rank)) (i : s.Idx) :
    broadcastInDim s ![] h (constant (F := Ideal) S_ .f32 0x00000000#32) i = 0 := by
  rw [broadcastInDim_apply _ _ _ i ix0 (fun a => a.elim0), constant_apply, Ideal.ofBits_zero_f32]

/-! ## The scatter's landing index

The scatter that fills the dense matrix has no window: both axes of the matrix are named by the two components of the
index vector, which lies along axis 1 of the `[2500000, 2]` index array. So nonzero `k` lands at the entry whose row is
component 0 and whose column is component 1 of row `k` of the index array, both read signed, and is dropped when either
is outside the matrix. -/

/-- Component `a` of nonzero `j`'s index vector is read at `(j, a)` of the index array. -/
theorem scatter_siIdx (j : S2500000.Idx)
    (a : Fin scatter_S100000x2048_S2500000x2_S2500000_n_01_01_1.scatterDimsToOperandDims.length) :
    scatter_S100000x2048_S2500000x2_S2500000_n_01_01_1.siIdx j a = ix2 (j 0) ⟨a.val, a.isLt⟩ := by
  funext b; refine Fin.ext ?_
  match b with
  | ⟨0, _⟩ => rfl
  | ⟨1, _⟩ => rfl

/-- The window's start on matrix axis `a` is component `a` of the index vector, read signed. -/
theorem scatter_start (j : S2500000.Idx) (idx : IVec S2500000x2 32) (a : Fin 2) :
    scatter_S100000x2048_S2500000x2_S2500000_n_01_01_1.start j idx a = (idx (ix2 (j 0) a)).toInt := by
  have ha : a ∈ scatter_S100000x2048_S2500000x2_S2500000_n_01_01_1.scatterDimsToOperandDims := by revert a; decide
  have hi : List.idxOf a scatter_S100000x2048_S2500000x2_S2500000_n_01_01_1.scatterDimsToOperandDims = a.val := by
    revert a; decide
  unfold ScatterDims.start
  rw [dif_pos ha, scatter_siIdx]
  exact congrArg (fun q => (idx (ix2 (j 0) q)).toInt) (Fin.ext hi)

/-- There is no window coordinate: both matrix axes are inserted ones. -/
theorem scatter_window (j : S2500000.Idx) (a : Fin 2) :
    scatter_S100000x2048_S2500000x2_S2500000_n_01_01_1.window j a = 0 := by
  unfold ScatterDims.window
  exact dif_neg (by revert a; decide)

/-- Nonzero `j` lands at entry `i` exactly when its two index components, read signed, are `i`'s coordinates. -/
theorem scatter_resultIdx_iff (j : S2500000.Idx) (idx : IVec S2500000x2 32) (i : S100000x2048.Idx) :
    scatter_S100000x2048_S2500000x2_S2500000_n_01_01_1.resultIdx? j idx = some i ↔
      (idx (ix2 (j 0) 0)).toInt = ((i 0).val : ℤ) ∧ (idx (ix2 (j 0) 1)).toInt = ((i 1).val : ℤ) := by
  have hs : ∀ a : Fin 2, scatter_S100000x2048_S2500000x2_S2500000_n_01_01_1.start j idx a
      + (scatter_S100000x2048_S2500000x2_S2500000_n_01_01_1.window j a : ℤ) = (idx (ix2 (j 0) a)).toInt := fun a => by
    rw [scatter_start, scatter_window]; simp
  have h0 := idx2_lt0 i
  have h1 := idx2_lt1 i
  unfold ScatterDims.resultIdx?
  constructor
  · intro h
    split at h
    · rename_i hb
      have e := Option.some.inj h
      have e0 : ((scatter_S100000x2048_S2500000x2_S2500000_n_01_01_1.start j idx 0
          + (scatter_S100000x2048_S2500000x2_S2500000_n_01_01_1.window j 0 : ℤ)).toNat) = (i 0).val :=
        congrArg (fun f : S100000x2048.Idx => (f 0).val) e
      have e1 : ((scatter_S100000x2048_S2500000x2_S2500000_n_01_01_1.start j idx 1
          + (scatter_S100000x2048_S2500000x2_S2500000_n_01_01_1.window j 1 : ℤ)).toNat) = (i 1).val :=
        congrArg (fun f : S100000x2048.Idx => (f 1).val) e
      have b0 := (hb 0).1
      have b1 := (hb 1).1
      rw [hs] at e0 e1 b0 b1
      omega
    · exact absurd h (by simp)
  · rintro ⟨g0, g1⟩
    have hb : ∀ a, 0 ≤ scatter_S100000x2048_S2500000x2_S2500000_n_01_01_1.start j idx a
          + (scatter_S100000x2048_S2500000x2_S2500000_n_01_01_1.window j a : ℤ)
        ∧ scatter_S100000x2048_S2500000x2_S2500000_n_01_01_1.start j idx a
          + (scatter_S100000x2048_S2500000x2_S2500000_n_01_01_1.window j a : ℤ) < S100000x2048.size a := by
      intro a
      rw [hs]
      match a with
      | ⟨0, _⟩ => show _ ∧ _ < ((100000 : ℕ) : ℤ); rw [show (⟨0, _⟩ : Fin 2) = 0 from rfl, g0]; omega
      | ⟨1, _⟩ => show _ ∧ _ < ((2048 : ℕ) : ℤ); rw [show (⟨1, _⟩ : Fin 2) = 1 from rfl, g1]; omega
    rw [dif_pos hb]
    congr 1
    funext a
    apply Fin.ext
    show (scatter_S100000x2048_S2500000x2_S2500000_n_01_01_1.start j idx a
          + (scatter_S100000x2048_S2500000x2_S2500000_n_01_01_1.window j a : ℤ)).toNat = (i a).val
    rw [hs]
    match a with
    | ⟨0, _⟩ => rw [show (⟨0, _⟩ : Fin 2) = 0 from rfl, g0]; simp
    | ⟨1, _⟩ => rw [show (⟨1, _⟩ : Fin 2) = 1 from rfl, g1]; simp

/-! ## The index array and the scattered matrix at an index -/

/-- Column 0 of the index array is the row indices … -/
theorem indexArray_row (r c : IVec S2500000 32) (k : Fin 2500000) :
    concatenate S2500000x2 1 [⟨S2500000x1, broadcastInDim S2500000x1 ![0] bcast_S2500000_S2500000x1_0 r⟩,
        ⟨S2500000x1, broadcastInDim S2500000x1 ![0] bcast_S2500000_S2500000x1_0 c⟩]
      concatenates_S2500000x1_S2500000x1_S2500000x2_d1 (ix2 k (0 : Fin 2)) = r (ix1 k) := by
  refine (concatenate_pair_apply_left (t := S2500000x2) (s₁ := S2500000x1) (s₂ := S2500000x1) (1 : Fin 2) _ _ _
    (ix2 k (0 : Fin 2)) rfl (ix2 k (0 : Fin 1)) fun b => ?_).trans ?_
  · match b with
    | ⟨0, _⟩ => rfl
    | ⟨1, _⟩ => rfl
  · refine broadcastInDim_apply _ _ r _ (ix1 k) fun a => ?_
    match a with
    | ⟨0, _⟩ => exact (if_neg (show ¬ (2500000 : ℕ) = 1 by omega)).symm

/-- … and column 1 the column indices. -/
theorem indexArray_col (r c : IVec S2500000 32) (k : Fin 2500000) :
    concatenate S2500000x2 1 [⟨S2500000x1, broadcastInDim S2500000x1 ![0] bcast_S2500000_S2500000x1_0 r⟩,
        ⟨S2500000x1, broadcastInDim S2500000x1 ![0] bcast_S2500000_S2500000x1_0 c⟩]
      concatenates_S2500000x1_S2500000x1_S2500000x2_d1 (ix2 k (1 : Fin 2)) = c (ix1 k) := by
  refine (concatenate_pair_apply_right (t := S2500000x2) (s₁ := S2500000x1) (s₂ := S2500000x1) (1 : Fin 2) _ _ _
    (ix2 k (1 : Fin 2)) rfl rfl (ix2 k (0 : Fin 1)) (fun b hb => ?_) rfl).trans ?_
  · match b with
    | ⟨0, _⟩ => rfl
    | ⟨1, _⟩ => exact absurd rfl hb
  · refine broadcastInDim_apply _ _ c _ (ix1 k) fun a => ?_
    match a with
    | ⟨0, _⟩ => exact (if_neg (show ¬ (2500000 : ℕ) = 1 by omega)).symm

/-- A rank-1 index set is its one coordinate's range. -/
def idxEquiv1 {n : Nat} : (⟨1, ![n]⟩ : Shape).Idx ≃ Fin n where
  toFun j := j 0
  invFun := ix1
  left_inv j := (eq_ix1 j).symm
  right_inv _ := rfl

/-- The scatter into the zero matrix read at entry `i`, over any index array and values: the sum of the values of the
    nonzeros `k` that satisfy `P`, when `P k` says that row `k` of the index array, read signed, is `i`. -/
theorem scatterAdd_read (x : FVec Ideal S100000x2048 .f32) (idx : IVec S2500000x2 32) (u : FVec Ideal S2500000 .f32)
    (i : S100000x2048.Idx) (P : Fin 2500000 → Prop) [DecidablePred P] (hx : x i = 0)
    (hP : ∀ k : Fin 2500000, ((idx (ix2 k 0)).toInt = ((i 0).val : ℤ) ∧ (idx (ix2 k 1)).toInt = ((i 1).val : ℤ)) ↔ P k) :
    Host.scatterAdd scatter_S100000x2048_S2500000x2_S2500000_n_01_01_1 x idx u i
      = ∑ k ∈ Finset.univ.filter P, u (ix1 k) := by
  refine (scatterAdd_apply _ _ _ _ _).trans ?_
  rewrite [hx, zero_add]
  refine Finset.sum_equiv idxEquiv1 (fun j => ?_) (fun j _ => ?_)
  · rewrite [Finset.mem_filter, Finset.mem_filter, scatter_resultIdx_iff]
    exact and_congr (iff_of_true (Finset.mem_univ _) (Finset.mem_univ _)) (hP (j 0))
  · exact congrArg u (eq_ix1 j)

/-- The dense feature matrix at `(n, f)`: the sum of the values of the nonzeros whose row index is `n` and whose column
    index is `f`, both read signed. -/
theorem denseFeatures_apply (r c : IVec S2500000 32) (v : FVec Ideal S2500000 .f32) (n : Fin 100000) (f : Fin 2048) :
    Stage.denseFeatures (F := Ideal) r c v (ix2 n f)
      = ∑ k ∈ Finset.univ.filter (fun k : Fin 2500000 =>
          (r (ix1 k)).toInt = (n.val : ℤ) ∧ (c (ix1 k)).toInt = (f.val : ℤ)), v (ix1 k) := by
  unfold Stage.denseFeatures
  rewrite [truncf_apply]
  refine scatterAdd_read _ _ _ _ _ (zeros_apply _ _) (fun k => ?_)
  rewrite [indexArray_row, indexArray_col]
  exact Iff.rfl

/-! ## Grouping a row's nonzeros by column -/

/-- Over the reals: the entries of one row of the scattered matrix against one column of the weights. The nonzeros
    that satisfy `P` (those of the row) fall into groups by their column `col k`; each group's sum times the weight of
    its column, summed over the columns, is the sum over the nonzeros of value times the weight its column names. -/
theorem sum_groups_mul {ι : Type} [Fintype ι] {K : ℕ} (P : ι → Prop) [DecidablePred P] (col : ι → Fin K)
    (a : ι → ℝ) (w : Fin K → ℝ) :
    ∑ f : Fin K, (∑ k ∈ Finset.univ.filter (fun k => P k ∧ col k = f), a k) * w f
      = ∑ k ∈ Finset.univ.filter P, a k * w (col k) := by
  rw [← Finset.sum_fiberwise (Finset.univ.filter P) col (fun k => a k * w (col k))]
  refine Finset.sum_congr rfl fun f _ => ?_
  rw [Finset.sum_mul, Finset.filter_filter]
  refine Finset.sum_congr rfl fun k hk => ?_
  rw [(Finset.mem_filter.1 hk).2.2]

/-- The inclusion of the reals in the extended reals goes through a finite sum. -/
theorem coe_finsum {ι : Type} (s : Finset ι) (g : ι → ℝ) : ((∑ k ∈ s, g k : ℝ) : EReal) = ∑ k ∈ s, (g k : EReal) := by
  classical
  induction s using Finset.induction_on with
  | empty => simp
  | insert k s hk ih => rw [Finset.sum_insert hk, Finset.sum_insert hk, EReal.coe_add, ih]

/-! ## The bias row -/

/-- The bias row at `(0, d)` is the bias vector's entry `d`. -/
theorem biasRow64_apply (b : FVec Ideal S64 .f32) (d : Fin 64) :
    Stage.biasRow64 (F := Ideal) b (ix2 (0 : Fin 1) d) = b (ix1 d) := by
  refine shapeCast_apply b shapeCasts_S64_S1x64 (ix2 (0 : Fin 1) d) (ix1 d) ?_
  rw [Shape.rowMajor_val_one, Shape.rowMajor_val_two]
  show d.val = 0 * 64 + d.val
  omega

/-- The dense feature matrix times the weights is the sparse product: for finite values and weights and column indices
    inside the weights' 2048 rows, row `n` of the scattered matrix against column `d` of `W` is the sum over the nonzeros
    of row `n` of each value times the entry of `W` its column index names — the nonzeros grouped by column, and the
    product distributed over each group's sum. -/
theorem denseFeatures_layer (r c : IVec S2500000 32) (v : FVec Ideal S2500000 .f32) (W : FVec Ideal S2048x64 .f32)
    (b : FVec Ideal S64 .f32)
    (hv : ∀ k, ∃ x : ℝ, v k = (x : EReal)) (hW : ∀ i, ∃ x : ℝ, W i = (x : EReal))
    (hc : ∀ k, 0 ≤ (c k).toInt ∧ (c k).toInt < 2048) :
    Cert.Layers.denseBias (Stage.denseFeatures (F := Ideal) r c v) W (Stage.biasRow64 (F := Ideal) b)
      = Cert.Layers.sparseDense r c v W b := by
  choose a ha using hv
  choose w hw using hW
  funext i
  -- a column index inside the weights' rows, as a row of the weights
  have hcolLt : ∀ k : Fin 2500000, (c (ix1 k)).toInt.toNat < 2048 := fun k => by have := hc (ix1 k); omega
  have hcol : ∀ (k : Fin 2500000) (f : Fin 2048),
      (c (ix1 k)).toInt = (f.val : ℤ) ↔ (⟨(c (ix1 k)).toInt.toNat, hcolLt k⟩ : Fin 2048) = f := fun k f => by
    have := hc (ix1 k)
    constructor
    · intro h; exact Fin.ext (by show (c (ix1 k)).toInt.toNat = f.val; omega)
    · intro h; have h' : (c (ix1 k)).toInt.toNat = f.val := congrArg Fin.val h; omega
  -- one term of the dense product, in the reals: the group of the row's nonzeros in column `f`, times the weight
  have hX : ∀ f : Fin 2048, Stage.denseFeatures (F := Ideal) r c v (ix2 (i 0) f) * W (ix2 f (i 1))
      = (((∑ k ∈ Finset.univ.filter (fun k : Fin 2500000 => (r (ix1 k)).toInt = ((i 0).val : ℤ)
            ∧ (⟨(c (ix1 k)).toInt.toNat, hcolLt k⟩ : Fin 2048) = f), a (ix1 k)) * w (ix2 f (i 1)) : ℝ) : EReal) := fun f => by
    have hfilt : Finset.univ.filter (fun k : Fin 2500000 =>
          (r (ix1 k)).toInt = ((i 0).val : ℤ) ∧ (c (ix1 k)).toInt = (f.val : ℤ))
        = Finset.univ.filter (fun k : Fin 2500000 =>
          (r (ix1 k)).toInt = ((i 0).val : ℤ) ∧ (⟨(c (ix1 k)).toInt.toNat, hcolLt k⟩ : Fin 2048) = f) :=
      Finset.filter_congr fun k _ => and_congr_right fun _ => hcol k f
    rewrite [denseFeatures_apply r c v (i 0) f, hfilt, hw, EReal.coe_mul, coe_finsum]
    exact congrArg (· * (w (ix2 f (i 1)) : EReal)) (Finset.sum_congr rfl fun k _ => ha _)
  unfold Cert.Layers.denseBias Cert.Layers.sparseDense
  rewrite [biasRow64_apply b (i 1), Ideal.ofBits_zero_f32, zero_add]
  refine congrArg (· + b (ix1 (i 1))) ?_
  refine (Finset.sum_congr rfl fun f _ => hX f).trans ?_
  refine (coe_finsum _ _).symm.trans ?_
  rewrite [sum_groups_mul (fun k : Fin 2500000 => (r (ix1 k)).toInt = ((i 0).val : ℤ))
    (fun k => (⟨(c (ix1 k)).toInt.toNat, hcolLt k⟩ : Fin 2048)) (fun k => a (ix1 k)) (fun f => w (ix2 f (i 1)))]
  refine (coe_finsum _ _).trans ?_
  refine Finset.sum_congr rfl fun k _ => ?_
  have hk : (⟨(c (ix1 k)).toInt.toNat, hcolLt k⟩ : Fin 2048) = ⟨min (c (ix1 k)).toInt.toNat 2047, by omega⟩ :=
    Fin.ext (by show (c (ix1 k)).toInt.toNat = min (c (ix1 k)).toInt.toNat 2047; have := hcolLt k; omega)
  rewrite [EReal.coe_mul, ← ha, ← hw, hk]
  exact rfl

end Cert.KernelIdeal.StageValue

end
-- ==== Proof.IndexFacts.lean ====
import proofs.«410451_j81449759801465_2_alg».proof.Proof.KernelStages
import proofs.«410451_j81449759801465_2_alg».proof.Proof.Layers
import Idealize.ShloMosaic.PureOps.Ideal
import Idealize.ShloMosaic.Lib.ValueIdx
import Idealize.ShloMosaic.Lib.Pipeline.Value

/-!
# Indices in range are read as they are

The kernel program lets a negative index count from the end of its axis before it scatters. On a non-negative index that
wrap does nothing. And the one-row array the second call takes for its bias is the bias vector read along the row.
-/

noncomputable section

namespace Cert.KernelIdeal.IndexFacts

open Idealize.ShloMosaic Idealize.ShloMosaic.TcCoe Idealize.ShloMosaic.ValueIdx
open Cert.KernelIdeal Cert.KernelIdeal.Gen

/-- A non-negative word is not below zero: the signed comparison against `0` comes out false. -/
theorem slt_zero_of_nonneg (x : BitVec 32) (h : 0 ≤ x.toInt) : IntOp.cmpi .slt x 0#32 = 0#1 :=
  eq_zero_of_ne_one fun e => by
    have h1 : x.toInt < (0#32 : BitVec 32).toInt := IntOp.cmpi_slt.1 e
    have h0 : (0#32 : BitVec 32).toInt = 0 := by decide
    omega

/-- Row indices none of which is negative pass the wrap unchanged. -/
theorem wrapRows_of_nonneg (r : IVec S2500000 32) (h : ∀ k, 0 ≤ (r k).toInt) : Stage.wrapRows r = r := by
  funext k
  show Scalar.select (IntOp.cmpi .slt (r k) 0#32) _ (r k) = r k
  rw [slt_zero_of_nonneg (r k) (h k), select_zero]

/-- Column indices none of which is negative pass the wrap unchanged. -/
theorem wrapCols_of_nonneg (c : IVec S2500000 32) (h : ∀ k, 0 ≤ (c k).toInt) : Stage.wrapCols c = c := by
  funext k
  show Scalar.select (IntOp.cmpi .slt (c k) 0#32) _ (c k) = c k
  rw [slt_zero_of_nonneg (c k) (h k), select_zero]

/-- The bias vector reshaped to one row of 40 is the vector read along the row. -/
theorem biasRow40_eq (b : FVec Ideal S40 .f32) : Stage.biasRow40 (F := Ideal) b = Cert.Layers.rowOf b := by
  funext i
  show shapeCast S1x40 b shapeCasts_S40_S1x40 i = b (ix1 (i 1))
  refine shapeCast_apply _ _ i (ix1 (i 1)) ?_
  rewrite [Shape.rowMajor_val_two, Shape.rowMajor_val_one]
  have h0 : (i 0).val < 1 := (i 0).isLt
  show (i 1).val = (i 0).val * 40 + (i 1).val
  omega

end Cert.KernelIdeal.IndexFacts

end
-- ==== Proof.PreFacts.lean ====
import proofs.«410451_j81449759801465_2_alg».proof.Pre_finite_inputs
import proofs.«410451_j81449759801465_2_alg».proof.Proof.Gen.Pre_finite_inputs
import proofs.«410451_j81449759801465_2_alg».proof.Proof.KernelStages
import Idealize.ShloMosaic.PureOps.Ideal
import Idealize.ShloMosaic.Lib.ReduceAll
import Idealize.ShloMosaic.Lib.StableHlo.Predicate
import Idealize.ShloMosaic.Lib.ValueIdx
import Idealize.ShloMosaic.Lib.Pipeline.Value

noncomputable section

namespace Cert.PreFacts

open Idealize.ShloMosaic Idealize.ShloMosaic.TcCoe Idealize.ShloMosaic.ValueIdx
open Cert.Pre_finite_inputs Cert.Pre_finite_inputs.Gen

/-- The scalar shape has exactly one index, the empty tuple of coordinates. -/
instance : Subsingleton S_.Idx := ⟨fun a b => funext fun d => d.elim0⟩

/-! ## A finiteness test read at one element -/

/-- An extended real whose absolute value `max x (-x)` lies strictly below `+∞` is a real number: `+∞` has
    absolute value `+∞`, and so has `-∞`. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The word `0x7F800000` (sign clear, exponent all ones, significand zero) denotes `+∞`. -/
theorem ofBits_inf : Ideal.ofBits .f32 0x7F800000#32 = (⊤ : EReal) := by simp [Ideal.ofBits, Ideal.ieee]

/-- One element of the test `|x| < +∞` over an array: where it came out true the element is a real number. -/
theorem real_of_test {s : Shape} (x : FVec Ideal s .f32) (hb : S_.BroadcastsInDim s (![] : Fin 0 → Fin s.rank)) (k : s.Idx)
    (h : cmpf .olt (Host.absf x) (broadcastInDim s ![] hb (constant S_ .f32 0x7F800000#32)) k = 1#1) :
    ∃ r : ℝ, x k = (r : EReal) := by
  refine real_of_abs_lt_top (x k) ?_
  have h' : Ideal.cmp .olt (max (x k) (-(x k))) (Ideal.ofBits .f32 0x7F800000#32) = 1#1 := h
  rw [ofBits_inf] at h'
  exact of_decide_eq_true ((StableHlo.Predicate.ofBool_eq_one_iff _).1 h')

/-! ## The two integer tests read at one element -/

/-- One element of the test `x ≥ 0` (signed) over an array of words: where it came out true the word is nonnegative. -/
theorem nonneg_of_test {s : Shape} (x : IVec s 32) (hb : S_.BroadcastsInDim s (![] : Fin 0 → Fin s.rank)) (k : s.Idx)
    (h : cmpi .sge x (broadcastInDim s ![] hb (constantI S_ 32 0#32)) k = 1#1) : 0 ≤ (x k).toInt := by
  have h' : IntOp.cmpi .sge (x k) 0#32 = 1#1 := h
  exact IntOp.cmpi_sge.1 h'

/-- One element of the test `x < 2048` (signed) over an array of words: where it came out true the word is below 2048. -/
theorem lt_of_test {s : Shape} (x : IVec s 32) (hb : S_.BroadcastsInDim s (![] : Fin 0 → Fin s.rank)) (k : s.Idx)
    (h : cmpi .slt x (broadcastInDim s ![] hb (constantI S_ 32 2048#32)) k = 1#1) : (x k).toInt < 2048 := by
  have h' : IntOp.cmpi .slt (x k) 2048#32 = 1#1 := h
  exact IntOp.cmpi_slt.1 h'

/-! ## The coordinate array's two rows read at an index -/

/-- The row-index slice at `k` is entry `(0, k)` of the coordinate array. -/
theorem featRows_apply (a : IVec S2x2500000 32) (k : S2500000.Idx) :
    Cert.KernelIdeal.Stage.featRows a k = a (ix2 (0 : Fin 2) (k 0)) := by
  unfold Cert.KernelIdeal.Stage.featRows
  refine (shapeCast_apply _ _ k (ix2 (0 : Fin 1) (k 0)) ?_).trans ?_
  · rewrite [Shape.rowMajor_val_two, Shape.rowMajor_val_one]
    show 0 * 2500000 + (k 0).val = (k 0).val
    omega
  · exact extractStridedSlice_apply _ a _ _ _ (fun b => match b with
      | ⟨0, _⟩ => by show 0 = 0 + 0; omega
      | ⟨1, _⟩ => by show (k 0).val = 0 + (k 0).val; omega)

/-- The column-index slice at `k` is entry `(1, k)` of the coordinate array. -/
theorem featCols_apply (a : IVec S2x2500000 32) (k : S2500000.Idx) :
    Cert.KernelIdeal.Stage.featCols a k = a (ix2 (1 : Fin 2) (k 0)) := by
  unfold Cert.KernelIdeal.Stage.featCols
  refine (shapeCast_apply _ _ k (ix2 (0 : Fin 1) (k 0)) ?_).trans ?_
  · rewrite [Shape.rowMajor_val_two, Shape.rowMajor_val_one]
    show 0 * 2500000 + (k 0).val = (k 0).val
    omega
  · exact extractStridedSlice_apply _ a _ _ _ (fun b => match b with
      | ⟨0, _⟩ => by show 1 = 1 + 0; omega
      | ⟨1, _⟩ => by show (k 0).val = 0 + (k 0).val; omega)

/-! ## The precondition, conjunct by conjunct -/

/-- What the precondition says of the inputs the first layer reads: every feature value and every first-layer weight is a
    real number, no row index is negative, and every column index lies inside the weights' 2048 rows. -/
theorem of_pre (a0 : IVec S2x2500000 32) (a1 : FVec Ideal S2500000 .f32) (a2 : IVec S2x1700000 32) (a3 : FVec Ideal S1700000 .f32)
    (a4 : FVec Ideal S2048x64 .f32) (a5 : FVec Ideal S64 .f32) (a6 : FVec Ideal S64x40 .f32) (a7 : FVec Ideal S40 .f32)
    (h : Cert.Pre_finite_inputs.fn (F := Ideal) a0 a1 a2 a3 a4 a5 a6 a7 = (fun _ => 1#1)) :
    (∀ k, ∃ x : ℝ, a1 k = (x : EReal)) ∧ (∀ i, ∃ x : ℝ, a4 i = (x : EReal))
      ∧ (∀ k, 0 ≤ (Cert.KernelIdeal.Stage.featRows a0 k).toInt)
      ∧ (∀ k, 0 ≤ (Cert.KernelIdeal.Stage.featCols a0 k).toInt ∧ (Cert.KernelIdeal.Stage.featCols a0 k).toInt < 2048) := by
  -- the precondition's one word, read at the scalar shape's index, is a conjunction of eight reductions
  have h0 := congrFun h ValueIdx.ix0
  dsimp only [fn, fn_part1, fn_part2] at h0
  obtain ⟨h0, c8⟩ := IntOp.andi_eq_one.1 h0
  obtain ⟨h0, c7⟩ := IntOp.andi_eq_one.1 h0
  obtain ⟨h0, c6⟩ := IntOp.andi_eq_one.1 h0
  obtain ⟨h0, c5⟩ := IntOp.andi_eq_one.1 h0
  obtain ⟨h0, c4⟩ := IntOp.andi_eq_one.1 h0
  obtain ⟨h0, c3⟩ := IntOp.andi_eq_one.1 h0
  obtain ⟨c1, c2⟩ := IntOp.andi_eq_one.1 h0
  -- each reduction by `and` that came out true had a true word at every index
  have e1 := Host.reduce_andi_all _ _ _ _ _ c1
  have e3 := Host.reduce_andi_all _ _ _ _ _ c3
  have e7 := Host.reduce_andi_all _ _ _ _ _ c7
  have e8 := Host.reduce_andi_all _ _ _ _ _ c8
  refine ⟨fun k => real_of_test a1 _ k (e1 k), fun i => real_of_test a4 _ i (e3 i), fun k => ?_, fun k => ⟨?_, ?_⟩⟩
  · rw [featRows_apply]; exact nonneg_of_test a0 _ _ (e7 _)
  · rw [featCols_apply]; exact nonneg_of_test a0 _ _ (e7 _)
  · exact lt_of_test (Cert.KernelIdeal.Stage.featCols a0) _ k (e8 k)

end Cert.PreFacts

end
-- ==== Proof.RefStages.lean ====
import proofs.«410451_j81449759801465_2_alg».proof.ReferenceIdeal
import proofs.«410451_j81449759801465_2_alg».proof.Proof.Gen.ReferenceIdeal

/-!
# The reference's layers as functions of whole arrays

The reference program is a straight line of array operations. Cut after its first layer, after each propagation over the
graph's edges, and after its second dense layer, each stretch is one function of the arrays it takes over: written here
with the operations the program itself applies, in its own order.
-/

noncomputable section

namespace Cert.ReferenceIdeal.Stage

open Cert.ReferenceIdeal Cert.ReferenceIdeal.Gen Idealize.ShloMosaic Idealize.ShloMosaic.TcCoe

variable {F : FTy → Type} [FloatOps F]

/-- Row 0 of the feature matrix's coordinate array: the row index of each nonzero. -/
def featRows (a : IVec S2x2500000 32) : IVec S2500000 32 :=
  shapeCast S2500000 (extractStridedSlice S1x2500000 ![0, 0] a slices_S2x2500000_S1x2500000_0_0) shapeCasts_S1x2500000_S2500000
/-- Row 1: the column index of each nonzero. -/
def featCols (a : IVec S2x2500000 32) : IVec S2500000 32 :=
  shapeCast S2500000 (extractStridedSlice S1x2500000 ![1, 0] a slices_S2x2500000_S1x2500000_1_0) shapeCasts_S1x2500000_S2500000
/-- Row 0 of the edge array: the node each edge's message is added to. -/
def edgeRows (a : IVec S2x1700000 32) : IVec S1700000 32 :=
  shapeCast S1700000 (extractStridedSlice S1x1700000 ![0, 0] a slices_S2x1700000_S1x1700000_0_0) shapeCasts_S1x1700000_S1700000
/-- Row 1: the node each edge's message is read from. -/
def edgeCols (a : IVec S2x1700000 32) : IVec S1700000 32 :=
  shapeCast S1700000 (extractStridedSlice S1x1700000 ![1, 0] a slices_S2x1700000_S1x1700000_1_0) shapeCasts_S1x1700000_S1700000

/-- A negative column index counts from the end of the 2048 feature columns. -/
def wrapCols (c : IVec S2500000 32) : IVec S2500000 32 :=
  select (cmpi .slt c (broadcastInDim S2500000 ![] bcast_S_S2500000 (constantI S_ 32 0#32)))
    (addi c (broadcastInDim S2500000 ![] bcast_S_S2500000 (constantI S_ 32 2048#32))) c
/-- A negative node index counts from the end of the 100000 nodes. -/
def wrapNodes (e : IVec S1700000 32) : IVec S1700000 32 :=
  select (cmpi .slt e (broadcastInDim S1700000 ![] bcast_S_S1700000 (constantI S_ 32 0#32)))
    (addi e (broadcastInDim S1700000 ![] bcast_S_S1700000 (constantI S_ 32 100000#32))) e

/-- The first layer: each nonzero `k` adds `v k` times row `c k` of `W` to row `r k` of a zero array; then the bias. -/
def layer1 (r c : IVec S2500000 32) (v : FVec F S2500000 .f32) (W : FVec F S2048x64 .f32) (b : FVec F S64 .f32) :
    FVec F S100000x64 .f32 :=
  addf (Host.scatterAdd scatter_S100000x64_S2500000x1_S2500000x64_1_0_0_1
      (broadcastInDim S100000x64 ![] bcast_S_S100000x64 (constant S_ .f32 0x00000000#32))
      (broadcastInDim S2500000x1 ![0] bcast_S2500000_S2500000x1_0 r)
      (mulf (broadcastInDim S2500000x64 ![0, 1] bcast_S2500000x1_S2500000x64_0_1 (broadcastInDim S2500000x1 ![0] bcast_S2500000_S2500000x1_0 v))
        (Host.gather gather_S2048x64_S2500000x1_S2500000x64_1_0_n_n_0_1_164 W (broadcastInDim S2500000x1 ![0] bcast_S2500000_S2500000x1_0 c))))
    (broadcastInDim S100000x64 ![0, 1] bcast_S1x64_S100000x64_0_1 (broadcastInDim S1x64 ![1] bcast_S64_S1x64_1 b))

/-- One propagation of 64-wide rows over the edges: edge `e` adds `w e` times row `ec e` of `h` to row `er e` of a zero array. -/
def prop64 (er ec : IVec S1700000 32) (w : FVec F S1700000 .f32) (h : FVec F S100000x64 .f32) : FVec F S100000x64 .f32 :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 er)
    (mulf (broadcastInDim S1700000x64 ![0, 1] bcast_S1700000x1_S1700000x64_0_1 (broadcastInDim S1700000x1 ![0] bcast_S1700000_S1700000x1_0 w))
      (Host.gather gather_S100000x64_S1700000x1_S1700000x64_1_0_n_n_0_1_164 h (broadcastInDim S1700000x1 ![0] bcast_S1700000_S1700000x1_0 ec)))

/-- The second layer: the rectifier, the product with `W`, the bias. -/
def dense2 (h : FVec F S100000x64 .f32) (W : FVec F S64x40 .f32) (b : FVec F S40 .f32) : FVec F S100000x40 .f32 :=
  addf (Host.dotGeneral dot_S100000x64_S64x40_S100000x40_1_0_0_1_n_n none
      (maximumf h (broadcastInDim S100000x64 ![] bcast_S_S100000x64 (constant S_ .f32 0x00000000#32))) W)
    (broadcastInDim S100000x40 ![0, 1] bcast_S1x40_S100000x40_0_1 (broadcastInDim S1x40 ![1] bcast_S40_S1x40_1 b))

/-- One propagation of 40-wide rows over the edges. -/
def prop40 (er ec : IVec S1700000 32) (w : FVec F S1700000 .f32) (z : FVec F S100000x40 .f32) : FVec F S100000x40 .f32 :=
  Host.scatterAdd scatter_S100000x40_S1700000x1_S1700000x40_1_0_0_1
    (broadcastInDim S100000x40 ![] bcast_S_S100000x40 (constant S_ .f32 0x00000000#32))
    (broadcastInDim S1700000x1 ![0] bcast_S1700000_S1700000x1_0 er)
    (mulf (broadcastInDim S1700000x40 ![0, 1] bcast_S1700000x1_S1700000x40_0_1 (broadcastInDim S1700000x1 ![0] bcast_S1700000_S1700000x1_0 w))
      (Host.gather gather_S100000x40_S1700000x1_S1700000x40_1_0_n_n_0_1_140 z (broadcastInDim S1700000x1 ![0] bcast_S1700000_S1700000x1_0 ec)))

/-- The row maximum the log-softmax shifts by: the reduction over the 40 columns from `−∞`, once more against `−∞`. -/
def rowShift (z : FVec F S100000x40 .f32) : FVec F S100000 .f32 :=
  maximumf (broadcastInDim S100000 ![] bcast_S_S100000 (constant S_ .f32 0xFF800000#32))
    (Host.reduce FloatOps.maximumf z (constant S_ .f32 0xFF800000#32) reducesTo_S100000x40_S100000_d1 h_S_)

/-- The shifted array `z − max z`. -/
def shifted (z : FVec F S100000x40 .f32) : FVec F S100000x40 .f32 :=
  subf z (broadcastInDim S100000x40 ![0, 1] bcast_S100000x1_S100000x40_0_1 (broadcastInDim S100000x1 ![0] bcast_S100000_S100000x1_0 (rowShift z)))

/-- The row-wise log-softmax: the shifted array minus the logarithm of its exponentials' row sum. -/
def logSoftmax (z : FVec F S100000x40 .f32) : FVec F S100000x40 .f32 :=
  subf (shifted z) (broadcastInDim S100000x40 ![0, 1] bcast_S100000x1_S100000x40_0_1
    (Host.log (broadcastInDim S100000x1 ![0] bcast_S100000_S100000x1_0
      (Host.reduceAdd (Host.exp (shifted z)) (constant S_ .f32 0x00000000#32) reducesTo_S100000x40_S100000_d1 h_S_))))

end Cert.ReferenceIdeal.Stage

end
-- ==== Proof.Bridge.lean ====
import proofs.«410451_j81449759801465_2_alg».proof.Proof.RefStages
import proofs.«410451_j81449759801465_2_alg».proof.Proof.KernelStages
import Idealize.ShloMosaic.PureOps.Ideal

/-!
# The two programs propagate over the edges by one function

Between its calls the kernel program gathers, scales and scatter-adds rows over the graph's edges with the operations the
reference uses, at the same dimension numbers; it only reads the rows in a narrower float format and widens them again,
which on the extended reals changes nothing.
-/

noncomputable section

namespace Cert.Bridge

open Idealize.ShloMosaic

theorem featRows_eq (a : IVec ⟨2, ![2, 2500000]⟩ 32) : Cert.KernelIdeal.Stage.featRows a = Cert.ReferenceIdeal.Stage.featRows a := rfl
theorem featCols_eq (a : IVec ⟨2, ![2, 2500000]⟩ 32) : Cert.KernelIdeal.Stage.featCols a = Cert.ReferenceIdeal.Stage.featCols a := rfl
theorem edgeRows_eq (a : IVec ⟨2, ![2, 1700000]⟩ 32) : Cert.KernelIdeal.Stage.edgeRows a = Cert.ReferenceIdeal.Stage.edgeRows a := rfl
theorem edgeCols_eq (a : IVec ⟨2, ![2, 1700000]⟩ 32) : Cert.KernelIdeal.Stage.edgeCols a = Cert.ReferenceIdeal.Stage.edgeCols a := rfl
theorem wrapCols_eq (c : IVec ⟨1, ![2500000]⟩ 32) : Cert.KernelIdeal.Stage.wrapCols c = Cert.ReferenceIdeal.Stage.wrapCols c := rfl
theorem wrapNodes_eq (e : IVec ⟨1, ![1700000]⟩ 32) : Cert.KernelIdeal.Stage.wrapNodes e = Cert.ReferenceIdeal.Stage.wrapNodes e := rfl

/-- The 64-wide propagation is the reference's, the format change being the identity on the extended reals. -/
theorem prop64_eq (er ec : IVec ⟨1, ![1700000]⟩ 32) (w : (⟨1, ![1700000]⟩ : Shape).Idx → EReal)
    (h : (⟨2, ![100000, 64]⟩ : Shape).Idx → EReal) :
    Cert.KernelIdeal.Stage.prop64 (F := Ideal) er ec w h = Cert.ReferenceIdeal.Stage.prop64 (F := Ideal) er ec w h := rfl

/-- The 40-wide propagation, likewise. -/
theorem prop40_eq (er ec : IVec ⟨1, ![1700000]⟩ 32) (w : (⟨1, ![1700000]⟩ : Shape).Idx → EReal)
    (z : (⟨2, ![100000, 40]⟩ : Shape).Idx → EReal) :
    Cert.KernelIdeal.Stage.prop40 (F := Ideal) er ec w z = Cert.ReferenceIdeal.Stage.prop40 (F := Ideal) er ec w z := rfl

end Cert.Bridge

end
-- ==== Proof.RefStretch.lean ====
import proofs.«410451_j81449759801465_2_alg».proof.Proof.RefRun
import proofs.«410451_j81449759801465_2_alg».proof.Proof.RefStages
import Idealize.ShloMosaic.Lib.Pipeline.Frame

/-!
# The reference's run, stretch by stretch

The reference's 81 operations are cut after its first layer, after each propagation, after its second dense layer, and
inside the log-softmax after the row maxima and after the shifted array. What a stretch leaves in the buffer it is cut at
is one function of what it found in the buffers it reads, and it leaves alone the buffers later stretches still read; so
the whole line leaves, in the result buffer, the composition of the five layer functions at the arguments' contents.
-/

set_option maxRecDepth 8192

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- Operations 1 to 27 of @main. -/
abbrev opsA : List (HloOp τ sig (Elt F)) :=
  [ unary main_arg0 main_v0 ((extractStridedSlice S1x2500000 ![0, 0] · slices_S2x2500000_S1x2500000_0_0) : (⟨S2x2500000, .i32⟩ : BufTy).Contents (Elt F) → (⟨S1x2500000, .i32⟩ : BufTy).Contents (Elt F)),
    reshape main_v0 main_v1 rfl shapeCasts_S1x2500000_S2500000,
    unary main_arg0 main_v2 ((extractStridedSlice S1x2500000 ![1, 0] · slices_S2x2500000_S1x2500000_1_0) : (⟨S2x2500000, .i32⟩ : BufTy).Contents (Elt F) → (⟨S1x2500000, .i32⟩ : BufTy).Contents (Elt F)),
    reshape main_v2 main_v3 rfl shapeCasts_S1x2500000_S2500000,
    unary main_arg2 main_v4 ((extractStridedSlice S1x1700000 ![0, 0] · slices_S2x1700000_S1x1700000_0_0) : (⟨S2x1700000, .i32⟩ : BufTy).Contents (Elt F) → (⟨S1x1700000, .i32⟩ : BufTy).Contents (Elt F)),
    reshape main_v4 main_v5 rfl shapeCasts_S1x1700000_S1700000,
    unary main_arg2 main_v6 ((extractStridedSlice S1x1700000 ![1, 0] · slices_S2x1700000_S1x1700000_1_0) : (⟨S2x1700000, .i32⟩ : BufTy).Contents (Elt F) → (⟨S1x1700000, .i32⟩ : BufTy).Contents (Elt F)),
    reshape main_v6 main_v7 rfl shapeCasts_S1x1700000_S1700000,
    unary main_arg1 main_v8 (broadcastInDim S2500000x1 ![0] bcast_S2500000_S2500000x1_0 : (⟨S2500000, .f32⟩ : BufTy).Contents (Elt F) → (⟨S2500000x1, .f32⟩ : BufTy).Contents (Elt F)),
    nullary main_c (constantI S_ 32 0#32),
    unary main_c main_v9 (broadcastInDim S2500000 ![] bcast_S_S2500000 : (⟨S_, .i32⟩ : BufTy).Contents (Elt F) → (⟨S2500000, .i32⟩ : BufTy).Contents (Elt F)),
    binary main_v3 main_v9 main_v10 (cmpi .slt : (⟨S2500000, .i32⟩ : BufTy).Contents (Elt F) → (⟨S2500000, .i32⟩ : BufTy).Contents (Elt F) → (⟨S2500000, .i1⟩ : BufTy).Contents (Elt F)),
    nullary main_c_0 (constantI S_ 32 2048#32),
    unary main_c_0 main_v11 (broadcastInDim S2500000 ![] bcast_S_S2500000 : (⟨S_, .i32⟩ : BufTy).Contents (Elt F) → (⟨S2500000, .i32⟩ : BufTy).Contents (Elt F)),
    binary main_v3 main_v11 main_v12 (addi : (⟨S2500000, .i32⟩ : BufTy).Contents (Elt F) → (⟨S2500000, .i32⟩ : BufTy).Contents (Elt F) → (⟨S2500000, .i32⟩ : BufTy).Contents (Elt F)),
    ternary main_v10 main_v12 main_v3 main_v13 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    unary main_v13 main_v14 (broadcastInDim S2500000x1 ![0] bcast_S2500000_S2500000x1_0 : (⟨S2500000, .i32⟩ : BufTy).Contents (Elt F) → (⟨S2500000x1, .i32⟩ : BufTy).Contents (Elt F)),
    binary main_arg4 main_v14 main_v15 ((fun x i => Host.gather gather_S2048x64_S2500000x1_S2500000x64_1_0_n_n_0_1_164 x i) : (⟨S2048x64, .f32⟩ : BufTy).Contents (Elt F) → (⟨S2500000x1, .i32⟩ : BufTy).Contents (Elt F) → (⟨S2500000x64, .f32⟩ : BufTy).Contents (Elt F)),
    unary main_v8 main_v16 (broadcastInDim S2500000x64 ![0, 1] bcast_S2500000x1_S2500000x64_0_1 : (⟨S2500000x1, .f32⟩ : BufTy).Contents (Elt F) → (⟨S2500000x64, .f32⟩ : BufTy).Contents (Elt F)),
    binary main_v16 main_v15 main_v17 (mulf : (⟨S2500000x64, .f32⟩ : BufTy).Contents (Elt F) → (⟨S2500000x64, .f32⟩ : BufTy).Contents (Elt F) → (⟨S2500000x64, .f32⟩ : BufTy).Contents (Elt F)),
    nullary main_cst (constant S_ .f32 0x00000000#32),
    unary main_cst main_v18 (broadcastInDim S100000x64 ![] bcast_S_S100000x64 : (⟨S_, .f32⟩ : BufTy).Contents (Elt F) → (⟨S100000x64, .f32⟩ : BufTy).Contents (Elt F)),
    unary main_v1 main_v19 (broadcastInDim S2500000x1 ![0] bcast_S2500000_S2500000x1_0 : (⟨S2500000, .i32⟩ : BufTy).Contents (Elt F) → (⟨S2500000x1, .i32⟩ : BufTy).Contents (Elt F)),
    ternary main_v18 main_v19 main_v17 main_v20 ((fun x i u => Host.scatterAdd scatter_S100000x64_S2500000x1_S2500000x64_1_0_0_1 x i u) : (⟨S100000x64, .f32⟩ : BufTy).Contents (Elt F) → (⟨S2500000x1, .i32⟩ : BufTy).Contents (Elt F) → (⟨S2500000x64, .f32⟩ : BufTy).Contents (Elt F) → (⟨S100000x64, .f32⟩ : BufTy).Contents (Elt F)),
    unary main_arg5 main_v21 (broadcastInDim S1x64 ![1] bcast_S64_S1x64_1 : (⟨S64, .f32⟩ : BufTy).Contents (Elt F) → (⟨S1x64, .f32⟩ : BufTy).Contents (Elt F)),
    unary main_v21 main_v22 (broadcastInDim S100000x64 ![0, 1] bcast_S1x64_S100000x64_0_1 : (⟨S1x64, .f32⟩ : BufTy).Contents (Elt F) → (⟨S100000x64, .f32⟩ : BufTy).Contents (Elt F)),
    binary main_v20 main_v22 main_v23 (addf : (⟨S100000x64, .f32⟩ : BufTy).Contents (Elt F) → (⟨S100000x64, .f32⟩ : BufTy).Contents (Elt F) → (⟨S100000x64, .f32⟩ : BufTy).Contents (Elt F)) ]

/-- Operations 28 to 43 of @main. -/
abbrev opsB : List (HloOp τ sig (Elt F)) :=
  [ unary main_arg3 main_v24 (broadcastInDim S1700000x1 ![0] bcast_S1700000_S1700000x1_0 : (⟨S1700000, .f32⟩ : BufTy).Contents (Elt F) → (⟨S1700000x1, .f32⟩ : BufTy).Contents (Elt F)),
    nullary main_c_1 (constantI S_ 32 0#32),
    unary main_c_1 main_v25 (broadcastInDim S1700000 ![] bcast_S_S1700000 : (⟨S_, .i32⟩ : BufTy).Contents (Elt F) → (⟨S1700000, .i32⟩ : BufTy).Contents (Elt F)),
    binary main_v7 main_v25 main_v26 (cmpi .slt : (⟨S1700000, .i32⟩ : BufTy).Contents (Elt F) → (⟨S1700000, .i32⟩ : BufTy).Contents (Elt F) → (⟨S1700000, .i1⟩ : BufTy).Contents (Elt F)),
    nullary main_c_2 (constantI S_ 32 100000#32),
    unary main_c_2 main_v27 (broadcastInDim S1700000 ![] bcast_S_S1700000 : (⟨S_, .i32⟩ : BufTy).Contents (Elt F) → (⟨S1700000, .i32⟩ : BufTy).Contents (Elt F)),
    binary main_v7 main_v27 main_v28 (addi : (⟨S1700000, .i32⟩ : BufTy).Contents (Elt F) → (⟨S1700000, .i32⟩ : BufTy).Contents (Elt F) → (⟨S1700000, .i32⟩ : BufTy).Contents (Elt F)),
    ternary main_v26 main_v28 main_v7 main_v29 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v29 main_v30 (broadcastInDim S1700000x1 ![0] bcast_S1700000_S1700000x1_0 : (⟨S1700000, .i32⟩ : BufTy).Contents (Elt F) → (⟨S1700000x1, .i32⟩ : BufTy).Contents (Elt F)),
    binary main_v23 main_v30 main_v31 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v24 main_v32 (broadcastInDim S1700000x64 ![0, 1] bcast_S1700000x1_S1700000x64_0_1 : (⟨S1700000x1, .f32⟩ : BufTy).Contents (Elt F) → (⟨S1700000x64, .f32⟩ : BufTy).Contents (Elt F)),
    binary main_v32 main_v31 main_v33 (mulf : (⟨S1700000x64, .f32⟩ : BufTy).Contents (Elt F) → (⟨S1700000x64, .f32⟩ : BufTy).Contents (Elt F) → (⟨S1700000x64, .f32⟩ : BufTy).Contents (Elt F)),
    nullary main_cst_3 (constant S_ .f32 0x00000000#32),
    unary main_cst_3 main_v34 (broadcastInDim S100000x64 ![] bcast_S_S100000x64 : (⟨S_, .f32⟩ : BufTy).Contents (Elt F) → (⟨S100000x64, .f32⟩ : BufTy).Contents (Elt F)),
    unary main_v5 main_v35 (broadcastInDim S1700000x1 ![0] bcast_S1700000_S1700000x1_0 : (⟨S1700000, .i32⟩ : BufTy).Contents (Elt F) → (⟨S1700000x1, .i32⟩ : BufTy).Contents (Elt F)),
    ternary main_v34 main_v35 main_v33 main_v36 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Operations 44 to 50 of @main. -/
abbrev opsC : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v36) (TRef.of (T := ⟨S100000x64, .f32⟩) main_call0_v0) (TRef.of (T := ⟨S100000x64, .f32⟩) main_v37) maximumf,
    binary main_v37 main_arg6 main_v38 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg7 main_v39 (broadcastInDim S1x40 ![1] bcast_S40_S1x40_1 : (⟨S40, .f32⟩ : BufTy).Contents (Elt F) → (⟨S1x40, .f32⟩ : BufTy).Contents (Elt F)),
    unary main_v39 main_v40 (broadcastInDim S100000x40 ![0, 1] bcast_S1x40_S100000x40_0_1 : (⟨S1x40, .f32⟩ : BufTy).Contents (Elt F) → (⟨S100000x40, .f32⟩ : BufTy).Contents (Elt F)),
    binary main_v38 main_v40 main_v41 (addf : (⟨S100000x40, .f32⟩ : BufTy).Contents (Elt F) → (⟨S100000x40, .f32⟩ : BufTy).Contents (Elt F) → (⟨S100000x40, .f32⟩ : BufTy).Contents (Elt F)) ]

/-- Operations 51 to 66 of @main. -/
abbrev opsD : List (HloOp τ sig (Elt F)) :=
  [ unary main_arg3 main_v42 (broadcastInDim S1700000x1 ![0] bcast_S1700000_S1700000x1_0 : (⟨S1700000, .f32⟩ : BufTy).Contents (Elt F) → (⟨S1700000x1, .f32⟩ : BufTy).Contents (Elt F)),
    nullary main_c_4 (constantI S_ 32 0#32),
    unary main_c_4 main_v43 (broadcastInDim S1700000 ![] bcast_S_S1700000 : (⟨S_, .i32⟩ : BufTy).Contents (Elt F) → (⟨S1700000, .i32⟩ : BufTy).Contents (Elt F)),
    binary main_v7 main_v43 main_v44 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v45 (broadcastInDim S1700000 ![] bcast_S_S1700000 : (⟨S_, .i32⟩ : BufTy).Contents (Elt F) → (⟨S1700000, .i32⟩ : BufTy).Contents (Elt F)),
    binary main_v7 main_v45 main_v46 (addi : (⟨S1700000, .i32⟩ : BufTy).Contents (Elt F) → (⟨S1700000, .i32⟩ : BufTy).Contents (Elt F) → (⟨S1700000, .i32⟩ : BufTy).Contents (Elt F)),
    ternary main_v44 main_v46 main_v7 main_v47 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v47 main_v48 (broadcastInDim S1700000x1 ![0] bcast_S1700000_S1700000x1_0 : (⟨S1700000, .i32⟩ : BufTy).Contents (Elt F) → (⟨S1700000x1, .i32⟩ : BufTy).Contents (Elt F)),
    binary main_v41 main_v48 main_v49 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v42 main_v50 (broadcastInDim S1700000x40 ![0, 1] bcast_S1700000x1_S1700000x40_0_1 : (⟨S1700000x1, .f32⟩ : BufTy).Contents (Elt F) → (⟨S1700000x40, .f32⟩ : BufTy).Contents (Elt F)),
    binary main_v50 main_v49 main_v51 (mulf : (⟨S1700000x40, .f32⟩ : BufTy).Contents (Elt F) → (⟨S1700000x40, .f32⟩ : BufTy).Contents (Elt F) → (⟨S1700000x40, .f32⟩ : BufTy).Contents (Elt F)),
    nullary main_cst_6 (constant S_ .f32 0x00000000#32),
    unary main_cst_6 main_v52 (broadcastInDim S100000x40 ![] bcast_S_S100000x40 : (⟨S_, .f32⟩ : BufTy).Contents (Elt F) → (⟨S100000x40, .f32⟩ : BufTy).Contents (Elt F)),
    unary main_v5 main_v53 (broadcastInDim S1700000x1 ![0] bcast_S1700000_S1700000x1_0 : (⟨S1700000, .i32⟩ : BufTy).Contents (Elt F) → (⟨S1700000x1, .i32⟩ : BufTy).Contents (Elt F)),
    ternary main_v52 main_v53 main_v51 main_v54 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)) ]

/-- Operations 67 to 71 of @main. -/
abbrev opsE1 : List (HloOp τ sig (Elt F)) :=
  [ TRef.nullary (TRef.of (T := ⟨S_, .f32⟩) main_call1_cst) (constant S_ .f32 0xFF800000#32),
    TRef.binary (TRef.of (T := ⟨S100000x40, .f32⟩) main_v54) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf ]

/-- Operations 72 to 74 of @main. -/
abbrev opsE2 : List (HloOp τ sig (Elt F)) :=
  [ TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v54) (TRef.of (T := ⟨S100000x40, .f32⟩) main_call1_v4) (TRef.of (T := ⟨S100000x40, .f32⟩) main_call1_v5) subf ]

/-- Operations 75 to 81 of @main. -/
abbrev opsE3 : List (HloOp τ sig (Elt F)) :=
  [ TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v55) subf ]

/-- The seven stretches in a row are @main's operations. -/
theorem ops_eq : (ops : List (HloOp τ sig (Elt F))) = opsA ++ (opsB ++ (opsC ++ (opsD ++ (opsE1 ++ (opsE2 ++ opsE3))))) := rfl

/-- A value moved to a typed reference's buffer type and back is the value. -/
theorem ofBuf_toBuf {T : BufTy} (x : TRef sig T) (v : T.Contents (Elt F)) : x.ofBuf (x.toBuf v) = v := by
  obtain ⟨r, h, _, _⟩ := x
  subst h
  rfl

/-! ## The first layer -/

theorem opsA_main_v23 (W : Valuation τ sig (Elt F)) : after opsA W (Proc.devRef .tc main_v23) =
    Stage.layer1 (Stage.featRows (W (Proc.devRef .tc main_arg0))) (Stage.wrapCols (Stage.featCols (W (Proc.devRef .tc main_arg0)))) (W (Proc.devRef .tc main_arg1)) (W (Proc.devRef .tc main_arg4)) (W (Proc.devRef .tc main_arg5)) := by
  after_results_simp <;> rfl
theorem opsA_main_v5 (W : Valuation τ sig (Elt F)) : after opsA W (Proc.devRef .tc main_v5) = Stage.edgeRows (W (Proc.devRef .tc main_arg2)) := by
  after_results_simp <;> rfl
theorem opsA_main_v7 (W : Valuation τ sig (Elt F)) : after opsA W (Proc.devRef .tc main_v7) = Stage.edgeCols (W (Proc.devRef .tc main_arg2)) := by
  after_results_simp <;> rfl
theorem opsA_main_arg3 (W : Valuation τ sig (Elt F)) : after opsA W (Proc.devRef .tc main_arg3) = W (Proc.devRef .tc main_arg3) := by after_results_simp
theorem opsA_main_arg6 (W : Valuation τ sig (Elt F)) : after opsA W (Proc.devRef .tc main_arg6) = W (Proc.devRef .tc main_arg6) := by after_results_simp
theorem opsA_main_arg7 (W : Valuation τ sig (Elt F)) : after opsA W (Proc.devRef .tc main_arg7) = W (Proc.devRef .tc main_arg7) := by after_results_simp

/-! ## The first propagation -/

theorem opsB_main_v36 (W : Valuation τ sig (Elt F)) : after opsB W (Proc.devRef .tc main_v36) =
    Stage.prop64 (W (Proc.devRef .tc main_v5)) (Stage.wrapNodes (W (Proc.devRef .tc main_v7))) (W (Proc.devRef .tc main_arg3)) (W (Proc.devRef .tc main_v23)) := by
  after_results_simp <;> rfl
theorem opsB_main_v5 (W : Valuation τ sig (Elt F)) : after opsB W (Proc.devRef .tc main_v5) = W (Proc.devRef .tc main_v5) := by after_results_simp
theorem opsB_main_v7 (W : Valuation τ sig (Elt F)) : after opsB W (Proc.devRef .tc main_v7) = W (Proc.devRef .tc main_v7) := by after_results_simp
theorem opsB_main_arg3 (W : Valuation τ sig (Elt F)) : after opsB W (Proc.devRef .tc main_arg3) = W (Proc.devRef .tc main_arg3) := by after_results_simp
theorem opsB_main_arg6 (W : Valuation τ sig (Elt F)) : after opsB W (Proc.devRef .tc main_arg6) = W (Proc.devRef .tc main_arg6) := by after_results_simp
theorem opsB_main_arg7 (W : Valuation τ sig (Elt F)) : after opsB W (Proc.devRef .tc main_arg7) = W (Proc.devRef .tc main_arg7) := by after_results_simp

/-! ## The second layer -/

theorem opsC_main_v41 (W : Valuation τ sig (Elt F)) : after opsC W (Proc.devRef .tc main_v41) =
    Stage.dense2 (W (Proc.devRef .tc main_v36)) (W (Proc.devRef .tc main_arg6)) (W (Proc.devRef .tc main_arg7)) := rfl
theorem opsC_main_v5 (W : Valuation τ sig (Elt F)) : after opsC W (Proc.devRef .tc main_v5) = W (Proc.devRef .tc main_v5) := by after_results_simp
theorem opsC_main_v7 (W : Valuation τ sig (Elt F)) : after opsC W (Proc.devRef .tc main_v7) = W (Proc.devRef .tc main_v7) := by after_results_simp
theorem opsC_main_arg3 (W : Valuation τ sig (Elt F)) : after opsC W (Proc.devRef .tc main_arg3) = W (Proc.devRef .tc main_arg3) := by after_results_simp

/-! ## The second propagation -/

theorem opsD_main_v54 (W : Valuation τ sig (Elt F)) : after opsD W (Proc.devRef .tc main_v54) =
    Stage.prop40 (W (Proc.devRef .tc main_v5)) (Stage.wrapNodes (W (Proc.devRef .tc main_v7))) (W (Proc.devRef .tc main_arg3)) (W (Proc.devRef .tc main_v41)) := by
  after_results_simp <;> rfl

/-! ## The log-softmax, in three short stretches -/

/-- The row maxima: the reduction's operand and initial value are read through the identity casts of the call's typed
    references, which are removed before the two sides are compared. -/
theorem opsE1_main_call1_v2 (W : Valuation τ sig (Elt F)) : after opsE1 W (Proc.devRef .tc main_call1_v2) = Stage.rowShift (W (Proc.devRef .tc main_v54)) := by
  after_results_simp
  simp only [ofBuf_toBuf]
  have inner : (TRef.of (T := ⟨S100000x40, .f32⟩) main_v54).ofBuf (W (Proc.devRef .tc main_v54)) = W (Proc.devRef .tc main_v54) := rfl
  rw [inner]
  unfold Stage.rowShift
  exact eq_of_heq (cast_heq _ _)
theorem opsE1_main_v54 (W : Valuation τ sig (Elt F)) : after opsE1 W (Proc.devRef .tc main_v54) = W (Proc.devRef .tc main_v54) := rfl

/-- The array less its row maxima. -/
theorem opsE2_main_call1_v5 (W : Valuation τ sig (Elt F)) : after opsE2 W (Proc.devRef .tc main_call1_v5) =
    subf (W (Proc.devRef .tc main_v54)) (broadcastInDim S100000x40 ![0, 1] bcast_S100000x1_S100000x40_0_1 (broadcastInDim S100000x1 ![0] bcast_S100000_S100000x1_0 (W (Proc.devRef .tc main_call1_v2)))) := rfl

/-- The shifted array less the logarithm of its exponentials' row sums. -/
theorem opsE3_main_v55 (W : Valuation τ sig (Elt F)) : after opsE3 W (Proc.devRef .tc main_v55) =
    subf (W (Proc.devRef .tc main_call1_v5)) (broadcastInDim S100000x40 ![0, 1] bcast_S100000x1_S100000x40_0_1
      (Host.log (broadcastInDim S100000x1 ![0] bcast_S100000_S100000x1_0
        (Host.reduceAdd (Host.exp (W (Proc.devRef .tc main_call1_v5))) (constant S_ .f32 0x00000000#32) reducesTo_S100000x40_S100000_d1 h_S_)))) := rfl

/-! ## The whole line -/

/-- After all 81 operations the result buffer holds the log-softmax of the second propagation of the second layer of the
    first propagation of the first layer, each at the contents the arguments had when the line began. -/
theorem ops_main_v55 (W : Valuation τ sig (Elt F)) : after ops W (Proc.devRef .tc main_v55) =
    Stage.logSoftmax (Stage.prop40 (Stage.edgeRows (W (Proc.devRef .tc main_arg2))) (Stage.wrapNodes (Stage.edgeCols (W (Proc.devRef .tc main_arg2)))) (W (Proc.devRef .tc main_arg3))
      (Stage.dense2 (Stage.prop64 (Stage.edgeRows (W (Proc.devRef .tc main_arg2))) (Stage.wrapNodes (Stage.edgeCols (W (Proc.devRef .tc main_arg2)))) (W (Proc.devRef .tc main_arg3))
          (Stage.layer1 (Stage.featRows (W (Proc.devRef .tc main_arg0))) (Stage.wrapCols (Stage.featCols (W (Proc.devRef .tc main_arg0)))) (W (Proc.devRef .tc main_arg1)) (W (Proc.devRef .tc main_arg4)) (W (Proc.devRef .tc main_arg5))))
        (W (Proc.devRef .tc main_arg6)) (W (Proc.devRef .tc main_arg7)))) := by
  refine (congrArg (fun l => after l W (Proc.devRef .tc main_v55)) ops_eq).trans ?_
  simp only [StableHlo.after_append]
  rw [opsE3_main_v55, opsE2_main_call1_v5, opsE1_main_call1_v2, opsE1_main_v54, opsD_main_v54, opsC_main_v41, opsC_main_v5,
    opsC_main_v7, opsC_main_arg3, opsB_main_v36, opsB_main_v5, opsB_main_v7, opsB_main_arg3, opsB_main_arg6, opsB_main_arg7,
    opsA_main_v23, opsA_main_v5, opsA_main_v7, opsA_main_arg3, opsA_main_arg6, opsA_main_arg7]
  unfold Stage.logSoftmax Stage.shifted
  rfl

end Cert.ReferenceIdeal.ValueP

end
-- ==== Proof.RefLayer1.lean ====
import proofs.«410451_j81449759801465_2_alg».proof.Proof.RefStages
import proofs.«410451_j81449759801465_2_alg».proof.Proof.Layers
import Idealize.ShloMosaic.Lib.ValueIdx
import Idealize.ShloMosaic.Lib.Pipeline.Value
import Idealize.ShloMosaic.PureOps.Ideal.Laws
import Idealize.ShloMosaic.PureOps.Reduce

/-!
# The reference's first layer, index by index

The first layer multiplies the sparse feature matrix, given by its nonzeros `(r k, c k, v k)`, with the dense weights and
adds the bias. The program does it with a gather (row `c k` of the weights for each nonzero), a product with `v k` spread
over the row, and a scatter that adds row `k` of the products into row `r k` of a zero array. Read at entry `(n, d)` this
is the sum, over the nonzeros whose row index is `n`, of `v k · W (c k, d)`, plus `b d`: the gather is read from its
dimension numbers (which operand entry a result entry reads), the scatter from its (which result entry an update lands
on), and the sum over the landing updates is re-indexed by the nonzeros.
-/

noncomputable section

namespace Cert.ReferenceIdeal.StageValue

open Idealize.ShloMosaic Idealize.ShloMosaic.TcCoe Idealize.ShloMosaic.ValueIdx
open Cert.ReferenceIdeal Cert.ReferenceIdeal.Gen

namespace Layer1

/-- The first layer's gather: rows of the weights, one per nonzero. -/
abbrev rowGather : GatherDims S2048x64 S2500000x1 S2500000x64 := gather_S2048x64_S2500000x1_S2500000x64_1_0_n_n_0_1_164
/-- The first layer's scatter: rows of products into the rows of the result. -/
abbrev rowScatter : ScatterDims S100000x64 S2500000x1 S2500000x64 := scatter_S100000x64_S2500000x1_S2500000x64_1_0_0_1

/-! ## The layout operations read at an index -/

/-- A vector of 2500000 entries as a one-column array: entry `(k, 0)` is entry `k`. -/
theorem col_apply {α : Type} (x : S2500000.Idx → α) (j : S2500000x1.Idx) :
    broadcastInDim S2500000x1 ![0] bcast_S2500000_S2500000x1_0 x j = x (ix1 (j 0)) :=
  broadcastInDim_apply _ bcast_S2500000_S2500000x1_0 x j (ix1 (j 0)) (fun a => match a with
    | ⟨0, _⟩ => by show (j 0).val = if (2500000 : Nat) = 1 then 0 else (j 0).val; rw [if_neg (by decide)])

/-- A one-column array spread over 64 columns: entry `(k, d)` is entry `(k, 0)`. -/
theorem spread_apply {α : Type} (x : S2500000x1.Idx → α) (j : S2500000x64.Idx) :
    broadcastInDim S2500000x64 ![0, 1] bcast_S2500000x1_S2500000x64_0_1 x j = x (ix2 (j 0) 0) :=
  broadcastInDim_apply _ bcast_S2500000x1_S2500000x64_0_1 x j (ix2 (j 0) 0) (fun a => match a with
    | ⟨0, _⟩ => by show (j 0).val = if (2500000 : Nat) = 1 then 0 else (j 0).val; rw [if_neg (by decide)]
    | ⟨1, _⟩ => by show 0 = if (1 : Nat) = 1 then 0 else (j 1).val; rw [if_pos rfl])

/-- The bias as a row, repeated down the 100000 rows: entry `(n, d)` is entry `d`. -/
theorem bias_apply (b : FVec Ideal S64 .f32) (i : S100000x64.Idx) :
    broadcastInDim S100000x64 ![0, 1] bcast_S1x64_S100000x64_0_1 (broadcastInDim S1x64 ![1] bcast_S64_S1x64_1 b) i
      = b (ix1 (i 1)) := by
  rw [broadcastInDim_apply _ bcast_S1x64_S100000x64_0_1 _ i (ix2 0 (i 1)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])]
  exact broadcastInDim_apply _ bcast_S64_S1x64_1 b (ix2 0 (i 1)) (ix1 (i 1)) (fun a => match a with
    | ⟨0, _⟩ => by show (i 1).val = if (64 : Nat) = 1 then 0 else (i 1).val; rw [if_neg (by decide)])

/-! ## The gather: which row of the weights a nonzero reads -/

/-- Result entry `(k, d)` of the gather reads the weights at row `idx (k, 0)`, taken signed and brought into
    `[0, 2047]`, and column `d`: axis 0 is the collapsed axis the start index names, axis 1 the offset axis. -/
theorem gather_operandIdx (idx : IVec S2500000x1 32) (j : S2500000x64.Idx) :
    rowGather.operandIdx j idx = ix2 ⟨min (idx (ix2 (j 0) 0)).toInt.toNat 2047, by omega⟩ (j 1) := by
  funext a
  refine Fin.ext ?_
  match a with
  | ⟨0, _⟩ =>
    show rowGather.start j idx 0 + rowGather.batchCoord j 0 + rowGather.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ rowGather.startIndexMap from List.mem_singleton.mpr rfl)]
    have hsi : rowGather.siIdx j ⟨List.idxOf (0 : Fin 2) rowGather.startIndexMap,
          List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    show rowGather.start j idx 1 + rowGather.batchCoord j 1 + rowGather.offCoord j 1 = _
    rw [GatherDims.batchCoord_eq_zero _ _ _ List.not_mem_nil]
    unfold GatherDims.start GatherDims.offCoord
    rw [dif_neg (show ¬ (1 : Fin 2) ∈ rowGather.startIndexMap from by decide),
      dif_pos (show (1 : Fin 2) ∈ rowGather.sKept from by decide)]
    simp only [Nat.add_zero, Nat.zero_add]
    rfl

/-! ## The scatter: which entry of the result a product lands on -/

/-- Every component of the start index is read at `(k, 0)` of the index array: it has one column. -/
theorem scatter_siIdx (j : S2500000x64.Idx) (c : Fin rowScatter.scatterDimsToOperandDims.length) :
    rowScatter.siIdx j c = ix2 (j 0) 0 := by
  funext b; refine Fin.ext ?_
  match b with
  | ⟨0, _⟩ => rfl
  | ⟨1, _⟩ =>
    have hc : c.val < 1 := c.isLt
    show c.val = 0
    omega

/-- On axis 0 the window starts at the index read signed … -/
theorem scatter_start0 (idx : IVec S2500000x1 32) (j : S2500000x64.Idx) :
    rowScatter.start j idx 0 = (idx (ix2 (j 0) 0)).toInt := by
  unfold ScatterDims.start
  rw [dif_pos (show (0 : Fin 2) ∈ rowScatter.scatterDimsToOperandDims from List.mem_singleton.mpr rfl), scatter_siIdx]
  rfl

/-- … and on axis 1, which the index does not name, at zero. -/
theorem scatter_start1 (idx : IVec S2500000x1 32) (j : S2500000x64.Idx) : rowScatter.start j idx 1 = 0 := by
  unfold ScatterDims.start
  rw [dif_neg (show ¬ (1 : Fin 2) ∈ rowScatter.scatterDimsToOperandDims from by decide)]

/-- Axis 0 is inserted: no window coordinate. -/
theorem scatter_window0 (j : S2500000x64.Idx) : rowScatter.window j 0 = 0 := by
  unfold ScatterDims.window
  rw [dif_neg (show ¬ (0 : Fin 2) ∈ rowScatter.sKept from by decide)]

/-- Axis 1 carries the update's column. -/
theorem scatter_window1 (j : S2500000x64.Idx) : rowScatter.window j 1 = (j 1).val := by
  unfold ScatterDims.window
  rw [dif_pos (show (1 : Fin 2) ∈ rowScatter.sKept from by decide)]
  rfl

/-- Update entry `(k, d)` lands on result entry `(n, d')` exactly when the index read signed at `(k, 0)` is `n` and
    `d = d'`: a negative index or one past the last row lands nowhere. -/
theorem scatter_resultIdx_iff (idx : IVec S2500000x1 32) (j : S2500000x64.Idx) (i : S100000x64.Idx) :
    rowScatter.resultIdx? j idx = some i ↔ (idx (ix2 (j 0) 0)).toInt = ((i 0).val : ℤ) ∧ (j 1).val = (i 1).val := by
  have hi0 : (i 0).val < 100000 := idx2_lt0 i
  have hi1 : (i 1).val < 64 := idx2_lt1 i
  have hj1 : (j 1).val < 64 := idx2_lt1 j
  have hs0 : S100000x64.size 0 = 100000 := rfl
  have hs1 : S100000x64.size 1 = 64 := rfl
  unfold ScatterDims.resultIdx?
  constructor
  · intro h
    split at h
    · rename_i hb
      have h' := Option.some.inj h
      have e0 : (rowScatter.start j idx 0 + rowScatter.window j 0).toNat = (i 0).val := congrArg (fun f => (f 0).val) h'
      have e1 : (rowScatter.start j idx 1 + rowScatter.window j 1).toNat = (i 1).val := congrArg (fun f => (f 1).val) h'
      have hb0 := (hb 0).1
      rw [scatter_start0, scatter_window0] at e0 hb0
      rw [scatter_start1, scatter_window1] at e1
      constructor <;> omega
    · exact absurd h (by simp)
  · rintro ⟨h0, h1⟩
    have hb : ∀ a, 0 ≤ rowScatter.start j idx a + rowScatter.window j a ∧ rowScatter.start j idx a + rowScatter.window j a < S100000x64.size a := by
      intro a
      match a with
      | ⟨0, _⟩ =>
        show 0 ≤ rowScatter.start j idx 0 + rowScatter.window j 0 ∧ rowScatter.start j idx 0 + rowScatter.window j 0 < S100000x64.size 0
        rw [scatter_start0, scatter_window0, hs0]; omega
      | ⟨1, _⟩ =>
        show 0 ≤ rowScatter.start j idx 1 + rowScatter.window j 1 ∧ rowScatter.start j idx 1 + rowScatter.window j 1 < S100000x64.size 1
        rw [scatter_start1, scatter_window1, hs1]; omega
    rw [dif_pos hb]
    refine congrArg some (funext fun a => Fin.ext ?_)
    match a with
    | ⟨0, _⟩ =>
      show (rowScatter.start j idx 0 + rowScatter.window j 0).toNat = (i 0).val
      rw [scatter_start0, scatter_window0]; omega
    | ⟨1, _⟩ =>
      show (rowScatter.start j idx 1 + rowScatter.window j 1).toNat = (i 1).val
      rw [scatter_start1, scatter_window1]; omega

/-! ## The first layer at an index -/

/-- A product lands on `(n, d)` exactly when its nonzero's row index, read signed, is `n` and its column is `d`. -/
theorem lands_iff (r : IVec S2500000 32) (j : S2500000x64.Idx) (i : S100000x64.Idx) :
    rowScatter.resultIdx? j (broadcastInDim S2500000x1 ![0] bcast_S2500000_S2500000x1_0 r) = some i
      ↔ (r (ix1 (j 0))).toInt = ((i 0).val : ℤ) ∧ (j 1).val = (i 1).val := by
  rw [scatter_resultIdx_iff, col_apply]

/-- The array of products at `(k, d)`: nonzero `k`'s value times the weight its column index reads in column `d`. -/
theorem update_apply (c : IVec S2500000 32) (v : FVec Ideal S2500000 .f32) (W : FVec Ideal S2048x64 .f32)
    (j : S2500000x64.Idx) :
    mulf (broadcastInDim S2500000x64 ![0, 1] bcast_S2500000x1_S2500000x64_0_1
        (broadcastInDim S2500000x1 ![0] bcast_S2500000_S2500000x1_0 v))
      (Host.gather rowGather W (broadcastInDim S2500000x1 ![0] bcast_S2500000_S2500000x1_0 c)) j
      = v (ix1 (j 0)) * W (ix2 ⟨min (c (ix1 (j 0))).toInt.toNat 2047, by omega⟩ (j 1)) := by
  rw [mulf_apply, spread_apply, col_apply]
  unfold Host.gather
  rw [gather_operandIdx]
  refine congrArg (fun a : Fin 2048 => v (ix1 (j 0)) * W (ix2 a (j 1))) (Fin.ext ?_)
  show min (broadcastInDim S2500000x1 ![0] bcast_S2500000_S2500000x1_0 c (ix2 (j 0) 0)).toInt.toNat 2047 = _
  rw [col_apply]

/-! ## The scatter-add at an index -/

/-- The scatter-add read at entry `i = (n, d)`, for updates that land on `i` exactly when their row `k` satisfies `P` and
    their column is `d`: the operand's entry plus the sum, over the rows `k` with `P k`, of the update's entry `(k, d)`.
    An update is determined by its row once its column is fixed, so the sum over the landing updates is a sum over rows. -/
theorem scatterAdd_apply (x : FVec Ideal S100000x64 .f32) (idx : IVec S2500000x1 32) (u : FVec Ideal S2500000x64 .f32)
    (i : S100000x64.Idx) (z : EReal) (P : Fin 2500000 → Prop) [DecidablePred P] (g : Fin 2500000 → EReal)
    (hx : x i = z)
    (hP : ∀ j : S2500000x64.Idx, rowScatter.resultIdx? j idx = some i ↔ P (j 0) ∧ (j 1).val = (i 1).val)
    (hu : ∀ j : S2500000x64.Idx, j 1 = i 1 → u j = g (j 0)) :
    Host.scatterAdd rowScatter x idx u i = z + ∑ k ∈ Finset.univ.filter P, g k := by
  show Ideal.hostScatterAdd rowScatter x idx u i = _
  unfold Ideal.hostScatterAdd
  rw [hx]
  refine congrArg (z + ·) ?_
  refine Finset.sum_nbij' (fun j : S2500000x64.Idx => (j 0 : Fin 2500000)) (fun k => ix2 k (i 1)) ?_ ?_ ?_ ?_ ?_
  · intro j hj
    exact Finset.mem_filter.2 ⟨Finset.mem_univ _, ((hP j).1 (Finset.mem_filter.1 hj).2).1⟩
  · intro k hk
    exact Finset.mem_filter.2 ⟨Finset.mem_univ _, (hP _).2 ⟨(Finset.mem_filter.1 hk).2, rfl⟩⟩
  · intro j hj
    have h1 : j 1 = i 1 := Fin.ext ((hP j).1 (Finset.mem_filter.1 hj).2).2
    rw [← h1]
    exact (eq_ix2 j).symm
  · intro k hk
    rfl
  · intro j hj
    exact hu j (Fin.ext ((hP j).1 (Finset.mem_filter.1 hj).2).2)

/-- The accumulator the scatter starts from is the zero constant at every entry. -/
theorem zero_apply (i : S100000x64.Idx) :
    broadcastInDim S100000x64 ![] bcast_S_S100000x64 (constant (F := Ideal) S_ .f32 0x00000000#32) i
      = Ideal.ofBits .f32 0x00000000#32 := by
  rw [broadcastInDim_apply _ bcast_S_S100000x64 _ i ix0 (fun a => a.elim0), constant_apply]

end Layer1

/-- The reference's first layer, read at an index: the sum over the nonzeros of the row, each value times the entry of the
    weights its column index reads, plus the bias. -/
theorem layer1_eq (r c : IVec S2500000 32) (v : FVec Ideal S2500000 .f32) (W : FVec Ideal S2048x64 .f32) (b : FVec Ideal S64 .f32) :
    Stage.layer1 (F := Ideal) r c v W b = Cert.Layers.sparseDense r c v W b := by
  funext i
  unfold Stage.layer1 Cert.Layers.sparseDense
  rw [addf_apply, Layer1.bias_apply]
  refine congrArg (· + b (ix1 (i 1))) ?_
  exact Layer1.scatterAdd_apply _ _ _ i _ _ _ (Layer1.zero_apply i) (fun j => Layer1.lands_iff r j i)
    (fun j h1 => by rw [Layer1.update_apply, h1])

end Cert.ReferenceIdeal.StageValue

end
-- ==== Proof.RefDense2.lean ====
import proofs.«410451_j81449759801465_2_alg».proof.Proof.RefStages
import proofs.«410451_j81449759801465_2_alg».proof.Proof.Layers
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.StageValue

open Idealize.ShloMosaic Idealize.ShloMosaic.TcCoe Idealize.ShloMosaic.ValueIdx
open Cert.ReferenceIdeal Cert.ReferenceIdeal.Gen

/-! ## Where the second layer's product reads its operands

The product contracts the left operand's axis 1 against the right operand's axis 0. At output index `i` and contraction
index `q`, the left operand is read at row `i 0`, column `q`; the right operand at row `q`, column `i 1`. One lemma
per operand axis. -/

/-- The left operand's row is the output's row. -/
theorem dense2_lhs_row (i : S100000x40.Idx) (q : dot_S100000x64_S64x40_S100000x40_1_0_0_1_n_n.contr.Idx) :
    (dot_S100000x64_S64x40_S100000x40_1_0_0_1_n_n.lhsIdx i q 0).val = (i 0).val := by
  unfold DotDims.lhsIdx
  rw [dif_neg (show ¬(0 : Fin S100000x64.rank) ∈ dot_S100000x64_S64x40_S100000x40_1_0_0_1_n_n.lhsBatch by decide),
    dif_pos (show (0 : Fin S100000x64.rank) ∈ dot_S100000x64_S64x40_S100000x40_1_0_0_1_n_n.lhsNonContracting by decide)]
  rfl

/-- The left operand's column is the contraction index. -/
theorem dense2_lhs_col (i : S100000x40.Idx) (q : dot_S100000x64_S64x40_S100000x40_1_0_0_1_n_n.contr.Idx) :
    (dot_S100000x64_S64x40_S100000x40_1_0_0_1_n_n.lhsIdx i q 1).val = (q ⟨0, by decide⟩).val :=
  dot_S100000x64_S64x40_S100000x40_1_0_0_1_n_n.lhsIdx_val_of_single rfl i q

/-- The right operand's row is the contraction index. -/
theorem dense2_rhs_row (i : S100000x40.Idx) (q : dot_S100000x64_S64x40_S100000x40_1_0_0_1_n_n.contr.Idx) :
    (dot_S100000x64_S64x40_S100000x40_1_0_0_1_n_n.rhsIdx i q 0).val = (q ⟨0, by decide⟩).val :=
  dot_S100000x64_S64x40_S100000x40_1_0_0_1_n_n.rhsIdx_val_of_single rfl i q

/-- The right operand's column is the output's column. -/
theorem dense2_rhs_col (i : S100000x40.Idx) (q : dot_S100000x64_S64x40_S100000x40_1_0_0_1_n_n.contr.Idx) :
    (dot_S100000x64_S64x40_S100000x40_1_0_0_1_n_n.rhsIdx i q 1).val = (i 1).val := by
  unfold DotDims.rhsIdx
  rw [dif_neg (show ¬(1 : Fin S64x40.rank) ∈ dot_S100000x64_S64x40_S100000x40_1_0_0_1_n_n.rhsBatch by decide),
    dif_pos (show (1 : Fin S64x40.rank) ∈ dot_S100000x64_S64x40_S100000x40_1_0_0_1_n_n.rhsNonContracting by decide)]
  rfl

/-- The product of a `100000 × 64` array with a `64 × 40` array, read at an index: entry `(n, d)` is the sum over
    `k` of `l (n, k) · r (k, d)`. The sum over the one-axis contraction shape is re-indexed over `Fin 64`. -/
theorem dense2_dot_apply (l : FVec Ideal S100000x64 .f32) (r : FVec Ideal S64x40 .f32) (i : S100000x40.Idx) :
    Host.dotGeneral dot_S100000x64_S64x40_S100000x40_1_0_0_1_n_n none l r i
      = ∑ k : Fin 64, l (ix2 (i 0) k) * r (ix2 k (i 1)) := by
  simp only [Host.dotGeneral]
  rw [Ideal.dotGeneral_apply,
    ← Equiv.sum_comp (contrEquiv1 dot_S100000x64_S64x40_S100000x40_1_0_0_1_n_n 64 rfl rfl).symm]
  refine Finset.sum_congr rfl fun k _ => ?_
  have hk := contrEquiv1_symm_val dot_S100000x64_S64x40_S100000x40_1_0_0_1_n_n 64 rfl rfl k
  have el : dot_S100000x64_S64x40_S100000x40_1_0_0_1_n_n.lhsIdx i
      ((contrEquiv1 dot_S100000x64_S64x40_S100000x40_1_0_0_1_n_n 64 rfl rfl).symm k) = ix2 (i 0) k :=
    funext fun a => Fin.ext (by
      match a with
      | ⟨0, _⟩ => exact dense2_lhs_row _ _
      | ⟨1, _⟩ => exact (dense2_lhs_col _ _).trans hk)
  have er : dot_S100000x64_S64x40_S100000x40_1_0_0_1_n_n.rhsIdx i
      ((contrEquiv1 dot_S100000x64_S64x40_S100000x40_1_0_0_1_n_n 64 rfl rfl).symm k) = ix2 k (i 1) :=
    funext fun a => Fin.ext (by
      match a with
      | ⟨0, _⟩ => exact (dense2_rhs_row _ _).trans hk
      | ⟨1, _⟩ => exact dense2_rhs_col _ _)
  rw [el, er]
  rfl

/-! ## The bias and the rectifier's zero, read at an index -/

/-- The bias vector made a one-row array and repeated down the 100000 rows: entry `(n, d)` is the vector's entry `d`. -/
theorem dense2_bias_apply (b : FVec Ideal S40 .f32) (i : S100000x40.Idx) :
    broadcastInDim S100000x40 ![0, 1] bcast_S1x40_S100000x40_0_1 (broadcastInDim S1x40 ![1] bcast_S40_S1x40_1 b) i
      = b (ix1 (i 1)) := by
  rw [broadcastInDim_apply _ bcast_S1x40_S100000x40_0_1 _ i (ix2 0 (i 1)) (fun a => match a with
    | ⟨0, _⟩ => by show 0 = if (1 : Nat) = 1 then 0 else (i 0).val; rw [if_pos rfl]
    | ⟨1, _⟩ => by show (i 1).val = if (40 : Nat) = 1 then 0 else (i 1).val; rw [if_neg (by decide)])]
  exact broadcastInDim_apply _ bcast_S40_S1x40_1 b (ix2 0 (i 1)) (ix1 (i 1)) (fun a => match a with
    | ⟨0, _⟩ => by show (i 1).val = if (40 : Nat) = 1 then 0 else (i 1).val; rw [if_neg (by decide)])

/-- The zero the rectifier compares against, spread over the whole array, is `0` at every index. -/
theorem dense2_zero_apply (i : S100000x64.Idx) :
    broadcastInDim S100000x64 ![] bcast_S_S100000x64 (constant (F := Ideal) S_ .f32 0x00000000#32) i = 0 := by
  rw [broadcastInDim_apply _ bcast_S_S100000x64 _ i ix0 (fun a => a.elim0), constant_apply, Ideal.ofBits_zero_f32]

/-! ## The second layer -/

/-- The reference's second layer, read at an index: the rectified row against a column of the weights, plus the bias. -/
theorem dense2_eq (h : FVec Ideal S100000x64 .f32) (W : FVec Ideal S64x40 .f32) (b : FVec Ideal S40 .f32) :
    Stage.dense2 (F := Ideal) h W b = Cert.Layers.denseBias (Cert.Layers.relu h) W (Cert.Layers.rowOf b) := by
  funext i
  unfold Stage.dense2
  rw [addf_apply, dense2_dot_apply, dense2_bias_apply]
  unfold Cert.Layers.denseBias Cert.Layers.rowOf Cert.Layers.relu
  refine congrArg (· + b (ix1 (i 1))) (Finset.sum_congr rfl fun k _ => ?_)
  rw [maximumf_apply, dense2_zero_apply]

end Cert.ReferenceIdeal.StageValue

end
-- ==== Proof.RefLogSoftmax.lean ====
import proofs.«410451_j81449759801465_2_alg».proof.Proof.RefStages
import proofs.«410451_j81449759801465_2_alg».proof.Proof.Layers
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.StageValue

open Idealize.ShloMosaic Idealize.ShloMosaic.TcCoe Idealize.ShloMosaic.ValueIdx
open Cert.ReferenceIdeal Cert.ReferenceIdeal.Gen

/-- The reduction over the 40 columns drops axis 1 of a [100000, 40] array: the shape fact that names the index put back. -/
private theorem reduces_cols : S100000x40.Reduces [1] S100000 := by decide

/-- Row `n` with column `k` put back on the dropped axis is the index (n, k). -/
private theorem lift_row_col (n : Fin 100000) (k : Fin 40) :
    reduces_cols.lift (ix1 n) k = ix2 n k := by
  funext c; apply Fin.ext
  fin_cases c <;> rfl

/-- The maximum against `−∞` is the identity. -/
private theorem max_negInf (x : Ideal .f32) : max (Ideal.ofBits .f32 0xFF800000#32) x = x := by
  simp [Ideal.ofBits, Ideal.ieee]

/-- A [100000, 1] column of per-row values spread over the 40 columns: entry (n, l) reads the column at (n, 0). -/
private theorem bcast_col_apply {α : Type} (y : S100000x1.Idx → α) (n : Fin 100000) (l : Fin 40) :
    broadcastInDim S100000x40 ![0, 1] bcast_S100000x1_S100000x40_0_1 y (ix2 n l) = y (ix2 n (0 : Fin 1)) :=
  broadcastInDim_apply _ bcast_S100000x1_S100000x40_0_1 y (ix2 n l) (ix2 n (0 : Fin 1)) (fun a => match a with
    | ⟨0, _⟩ => by show n.val = if (100000 : Nat) = 1 then 0 else n.val; rw [if_neg (by decide)]
    | ⟨1, _⟩ => by show 0 = if (1 : Nat) = 1 then 0 else l.val; rw [if_pos rfl])

/-- A vector of per-row values written as a [100000, 1] column: entry (n, 0) reads the vector's entry `n`. -/
private theorem bcast_vec_apply {α : Type} (y : S100000.Idx → α) (n : Fin 100000) (c : Fin 1) :
    broadcastInDim S100000x1 ![0] bcast_S100000_S100000x1_0 y (ix2 n c) = y (ix1 n) :=
  broadcastInDim_apply _ bcast_S100000_S100000x1_0 y (ix2 n c) (ix1 n) (fun a => match a with
    | ⟨0, _⟩ => by show n.val = if (100000 : Nat) = 1 then 0 else n.val; rw [if_neg (by decide)])

/-- On the extended reals the host's exponential, entry by entry, is the exponential. -/
private theorem hostExp_apply {s : Shape} (x : FVec Ideal s .f32) (i : s.Idx) : Host.exp x i = Ideal.exp (x i) := rfl

/-- On the extended reals the host's logarithm, entry by entry, is the logarithm. -/
private theorem hostLog_apply {s : Shape} (x : FVec Ideal s .f32) (i : s.Idx) : Host.log x i = Ideal.log (x i) := rfl

/-- The shift of row `n` is the row's largest entry: the reduction over the columns is the fold of the maximum over the row
    from `−∞`, and the further maximum against `−∞` changes nothing. -/
private theorem rowShift_apply (z : FVec Ideal S100000x40 .f32) (n : Fin 100000) :
    Stage.rowShift (F := Ideal) z (ix1 n) = Cert.Layers.rowMax z n := by
  unfold Stage.rowShift
  rw [maximumf_apply, Host.reduce_eq_fold_single FloatOps.maximumf z _ reducesTo_S100000x40_S100000_d1 reduces_cols h_S_]
  have hrow : (z ∘ reduces_cols.lift (ix1 n)) = fun l : Fin 40 => z (ix2 n l) :=
    funext fun k => congrArg z (lift_row_col n k)
  rw [hrow]
  exact max_negInf _

/-- The shifted array at (n, l) is the entry less row `n`'s largest entry. -/
private theorem shifted_apply (z : FVec Ideal S100000x40 .f32) (n : Fin 100000) (l : Fin 40) :
    Stage.shifted (F := Ideal) z (ix2 n l) = z (ix2 n l) - Cert.Layers.rowMax z n := by
  unfold Stage.shifted
  rw [subf_apply, bcast_col_apply, bcast_vec_apply, rowShift_apply]

/-- The row sum of the shifted array's exponentials, at row `n`: the sum over the 40 columns, from zero. -/
private theorem expSum_apply (z : FVec Ideal S100000x40 .f32) (n : Fin 100000) :
    Host.reduceAdd (Host.exp (Stage.shifted (F := Ideal) z)) (constant S_ .f32 0x00000000#32)
        reducesTo_S100000x40_S100000_d1 h_S_ (ix1 n)
      = ∑ l : Fin 40, Ideal.exp (z (ix2 n l) - Cert.Layers.rowMax z n) := by
  show Ideal.hostReduceAdd reducesTo_S100000x40_S100000_d1 (Host.exp (Stage.shifted (F := Ideal) z))
      (Ideal.ofBits .f32 0x00000000#32) (ix1 n) = _
  rw [Ideal.hostReduceAdd_single reducesTo_S100000x40_S100000_d1 reduces_cols, Ideal.ofBits_zero_f32, zero_add]
  refine Finset.sum_congr rfl fun (k : Fin 40) _ => ?_
  rw [lift_row_col n k, hostExp_apply, shifted_apply]

/-- The reference's log-softmax, read at an index: the entry less its row's maximum, less the logarithm of the row's sum of
    exponentials of such differences. -/
theorem logSoftmax_eq (z : FVec Ideal S100000x40 .f32) :
    Stage.logSoftmax (F := Ideal) z = Cert.Layers.logSoftmax z := by
  funext i
  obtain ⟨n, l, rfl⟩ : ∃ (n : Fin 100000) (l : Fin 40), i = ix2 n l := ⟨i 0, i 1, eq_ix2 i⟩
  show Stage.logSoftmax (F := Ideal) z (ix2 n l)
    = (z (ix2 n l) - Cert.Layers.rowMax z n) - Ideal.log (∑ l' : Fin 40, Ideal.exp (z (ix2 n l') - Cert.Layers.rowMax z n))
  unfold Stage.logSoftmax
  rw [subf_apply, shifted_apply, bcast_col_apply, hostLog_apply, bcast_vec_apply, expSum_apply]

end Cert.ReferenceIdeal.StageValue

end
-- ==== Proof.lean ====
/-
  A two-layer graph network's class log-probabilities, computed two ways. The reference multiplies the sparse feature
  matrix, given by the coordinates and values of its nonzeros, into the first layer's weights nonzero by nonzero: each
  nonzero adds its value times a row of the weights to its node's row. The kernel program first scatters the nonzeros into a
  dense 100000 × 2048 array and multiplies that by the weights in row blocks of 1000. Row `n` of the dense array against
  column `d` of the weights is the sum over the columns `f` of (the sum of the nonzeros at `(n, f)`) times `W (f, d)`; the
  product distributes over each inner sum, and the nonzeros of row `n` grouped by their column are all the nonzeros of row
  `n`: that is the reference's sum. The distribution needs the values and the weights to be real numbers, which the
  precondition gives; and the two programs read an index outside its axis differently (a scatter drops it, a gather clamps
  it, and only the kernel program lets a negative row count from the end), so the precondition also keeps the feature
  coordinates inside their axes.
  From there on the two programs apply the same functions: the propagation over the edges (a gather, a scaling and a
  scatter-add with the same dimension numbers; the kernel program's narrower float format in between is the identity on
  the extended reals), the second dense layer `relu h · W₂ + b₂` (in row blocks of 5000 against one whole product), the
  second propagation, and the row-wise log-softmax `z − max z − log Σ exp (z − max z)` (again in row blocks of 5000).
  The frames of the two kernel programs are the generated ones; the reference's is its run with the result dropped.
-/
import proofs.«410451_j81449759801465_2_alg».proof.Defs
import proofs.«410451_j81449759801465_2_alg».proof.Proof.Gen.Kernel
import proofs.«410451_j81449759801465_2_alg».proof.Proof.Gen.Kernel.Frame
import proofs.«410451_j81449759801465_2_alg».proof.Proof.Gen.KernelIdeal
import proofs.«410451_j81449759801465_2_alg».proof.Proof.Gen.KernelIdeal.Frame
import proofs.«410451_j81449759801465_2_alg».proof.Proof.Gen.ReferenceIdeal
import proofs.«410451_j81449759801465_2_alg».proof.Proof.Gen.Pre_finite_inputs
import proofs.«410451_j81449759801465_2_alg».proof.Proof.KernelRun
import proofs.«410451_j81449759801465_2_alg».proof.Proof.KernelValue
import proofs.«410451_j81449759801465_2_alg».proof.Proof.KernelLayer1
import proofs.«410451_j81449759801465_2_alg».proof.Proof.IndexFacts
import proofs.«410451_j81449759801465_2_alg».proof.Proof.PreFacts
import proofs.«410451_j81449759801465_2_alg».proof.Proof.Bridge
import proofs.«410451_j81449759801465_2_alg».proof.Proof.RefRun
import proofs.«410451_j81449759801465_2_alg».proof.Proof.RefStretch
import proofs.«410451_j81449759801465_2_alg».proof.Proof.RefLayer1
import proofs.«410451_j81449759801465_2_alg».proof.Proof.RefDense2
import proofs.«410451_j81449759801465_2_alg».proof.Proof.RefLogSoftmax
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-! ## The two results are one function of the arguments -/

/-- From memories agreeing on the arguments, under the precondition: what the reference's operations leave in its result
    buffer is what the kernel program's last boundary holds in its result buffer. Both are the log-softmax of the second
    propagation of the second dense layer of the first propagation of the first layer; the first layers agree by the
    sparse-times-dense identity, the others are the same functions. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal m)
    (hagree : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))) :
    after (Cert.ReferenceIdeal.ValueP.ops (F := Ideal)) (launchContents m' c) (Proc.devRef .tc Cert.ReferenceIdeal.main_v55)
      = Cert.KernelIdeal.Gen.W6 m ρ c (Proc.devRef .tc Cert.KernelIdeal.main_v56) := by
  obtain ⟨hv, hW, hr, hc⟩ := Cert.PreFacts.of_pre _ _ _ _ _ _ _ _ (hpre c)
  obtain ⟨e0, e1, e2, e3, e4, e5, e6, e7⟩ := hagree
  rw [Cert.ReferenceIdeal.ValueP.ops_main_v55]
  have a0 : launchContents m' c (Proc.devRef .tc Cert.ReferenceIdeal.main_arg0) = (m ((c.tc : Thread Cert.KernelIdeal.nD Cert.KernelIdeal.τ).loc Cert.KernelIdeal.main_arg0)) := e0
  have a1 : launchContents m' c (Proc.devRef .tc Cert.ReferenceIdeal.main_arg1) = (m ((c.tc : Thread Cert.KernelIdeal.nD Cert.KernelIdeal.τ).loc Cert.KernelIdeal.main_arg1)) := e1
  have a2 : launchContents m' c (Proc.devRef .tc Cert.ReferenceIdeal.main_arg2) = (m ((c.tc : Thread Cert.KernelIdeal.nD Cert.KernelIdeal.τ).loc Cert.KernelIdeal.main_arg2)) := e2
  have a3 : launchContents m' c (Proc.devRef .tc Cert.ReferenceIdeal.main_arg3) = (m ((c.tc : Thread Cert.KernelIdeal.nD Cert.KernelIdeal.τ).loc Cert.KernelIdeal.main_arg3)) := e3
  have a4 : launchContents m' c (Proc.devRef .tc Cert.ReferenceIdeal.main_arg4) = (m ((c.tc : Thread Cert.KernelIdeal.nD Cert.KernelIdeal.τ).loc Cert.KernelIdeal.main_arg4)) := e4
  have a5 : launchContents m' c (Proc.devRef .tc Cert.ReferenceIdeal.main_arg5) = (m ((c.tc : Thread Cert.KernelIdeal.nD Cert.KernelIdeal.τ).loc Cert.KernelIdeal.main_arg5)) := e5
  have a6 : launchContents m' c (Proc.devRef .tc Cert.ReferenceIdeal.main_arg6) = (m ((c.tc : Thread Cert.KernelIdeal.nD Cert.KernelIdeal.τ).loc Cert.KernelIdeal.main_arg6)) := e6
  have a7 : launchContents m' c (Proc.devRef .tc Cert.ReferenceIdeal.main_arg7) = (m ((c.tc : Thread Cert.KernelIdeal.nD Cert.KernelIdeal.τ).loc Cert.KernelIdeal.main_arg7)) := e7
  rw [a0, a1, a2, a3, a4, a5, a6, a7]
  rw [Cert.KernelIdeal.Gen.W6_main_v56, Cert.KernelIdeal.Gen.W4_main_v41, Cert.KernelIdeal.Gen.W2_main_v25]
  -- the kernel program's side: the wraps do nothing, the dense first layer is the sparse product
  rw [Cert.KernelIdeal.IndexFacts.wrapRows_of_nonneg _ hr, Cert.KernelIdeal.IndexFacts.wrapCols_of_nonneg _ (fun k => (hc k).1),
    Cert.KernelIdeal.StageValue.denseFeatures_layer _ _ _ _ _ hv hW hc, Cert.KernelIdeal.IndexFacts.biasRow40_eq, Cert.Bridge.prop64_eq, Cert.Bridge.prop40_eq]
  -- the reference's side: its column wrap does nothing either, and each layer is the function named
  have hcols : Cert.ReferenceIdeal.Stage.wrapCols (Cert.ReferenceIdeal.Stage.featCols (m ((c.tc : Thread Cert.KernelIdeal.nD Cert.KernelIdeal.τ).loc Cert.KernelIdeal.main_arg0))) = Cert.KernelIdeal.Stage.featCols (m ((c.tc : Thread Cert.KernelIdeal.nD Cert.KernelIdeal.τ).loc Cert.KernelIdeal.main_arg0)) :=
    Cert.KernelIdeal.IndexFacts.wrapCols_of_nonneg _ (fun k => (hc k).1)
  rw [hcols, Cert.ReferenceIdeal.StageValue.layer1_eq, Cert.ReferenceIdeal.StageValue.dense2_eq, Cert.ReferenceIdeal.StageValue.logSoftmax_eq]
  rfl

/-! ## The claims -/

theorem frame_kernel : Cert.frame_Kernel := fun m ρ _ => Cert.Kernel.Gen.frame m ρ
theorem frame_kernelIdeal : Cert.frame_KernelIdeal := fun m ρ _ => Cert.KernelIdeal.Gen.frame m ρ
/-- The reference has no pipelined call: its frame is its run with the result dropped. -/
theorem frame_referenceIdeal : Cert.frame_ReferenceIdeal := fun m ρ _ =>
  (θ_run Cert.ReferenceIdeal.defs _ _).mono (fun _ h c => (h c).2) (Cert.ReferenceIdeal.ValueP.run_fold (F := Ideal) m ρ)

/-- The ideal pass rewrote no operation: nothing to preserve. -/
theorem preserves : Cert.preserves_Kernel_KernelIdeal := trivial

/-- Both programs run; the kernel program's result buffer ends at its last boundary's contents (the frame run with the
    result named), the reference's at the fold of its operations, and the two are equal (`result_eq`). -/
theorem algebraic : Cert.algebraic_KernelIdeal_ReferenceIdeal := by
  intro m ρ m' ρ' hpre hagree
  refine ⟨fun c => Cert.KernelIdeal.Gen.W6 m ρ c (Proc.devRef .tc Cert.KernelIdeal.main_v56), Cert.KernelIdeal.Gen.run_named m ρ, ?_⟩
  exact (θ_run Cert.ReferenceIdeal.defs _ _).mono (fun _ h c => ⟨(h c).1.trans (result_eq m ρ m' c hpre (hagree c)), (h c).2⟩)
    (Cert.ReferenceIdeal.ValueP.run_fold (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
